-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 100
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S128x128, .bf16⟩
  | .hbm, ⟨54, _⟩ => ⟨S50000x128, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .f32⟩
  | .hbm, ⟨64, _⟩ => ⟨S850000x1, .f32⟩
  | .hbm, ⟨65, _⟩ => ⟨S850000x128, .f32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S128x128, .bf16⟩
  | .hbm, ⟨74, _⟩ => ⟨S1x128, .f32⟩
  | .hbm, ⟨75, _⟩ => ⟨S50000x128, .f32⟩
  | .hbm, ⟨76, _⟩ => ⟨S128x128, .bf16⟩
  | .hbm, ⟨77, _⟩ => ⟨S50000x128, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x128, .f32⟩
  | .hbm, ⟨87, _⟩ => ⟨S850000x1, .f32⟩
  | .hbm, ⟨88, _⟩ => ⟨S850000x128, .f32⟩
  | .hbm, ⟨89, _⟩ => ⟨S850000x128, .f32⟩
  | .hbm, ⟨90, _⟩ => ⟨S_, .f32⟩
  | .hbm, ⟨91, _⟩ => ⟨S50000x128, .f32⟩
  | .hbm, ⟨92, _⟩ => ⟨S850000x1, .i32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S128x64, .bf16⟩
  | .hbm, ⟨97, _⟩ => ⟨S1x64, .f32⟩
  | .hbm, ⟨98, _⟩ => ⟨S50000x64, .f32⟩
  | .hbm, ⟨99, _⟩ => ⟨S1x64, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .bf16⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .bf16⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x64, .bf16⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31
abbrev cc6_sem0_0 : DmaSem sig := 32
abbrev cc6_sem0_1 : DmaSem sig := 33
abbrev cc6_sem1_0 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S2000x64_S64 : S2000x64.Reduces [0] S64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .bf16 = 32 ∨ (Rect.block (s := S128x64) S128x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v71) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S1x64.size cc6_transform_1 reads6_1 true true 1 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S_, .f32⟩
  | 88 => ⟨S50000, .f32⟩
  | 89 => ⟨S50000, .f32⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S50000x128, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x128, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S50000x64, .f32⟩
  | 8 => ⟨S1x64, .f32⟩
  | 9 => ⟨S50000x64, .f32⟩
  | 10 => ⟨S50000x64, .f32⟩
  | 11 => ⟨S_, .f32⟩
  | 12 => ⟨S64, .f32⟩
  | 13 => ⟨S1x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_call1_v0 : Ref sig .tc := ⟨.hbm, 92, rfl⟩
abbrev main_call1_v1 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_c_18 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_19 : Ref sig .tc := ⟨.hbm, 115, rfl⟩
abbrev main_v80 : Ref sig .tc := ⟨.hbm, 116, rfl⟩
abbrev main_v81 : Ref sig .tc := ⟨.hbm, 117, rfl⟩
abbrev main_c_20 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«110766_j28965259444614_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.LibRowwise.lean ====
/-
  Layers of a network that acts on each row by itself, read along one row.

  An `[R, n]` array is a stack of `R` rows. A product with a fixed `[K, N]` matrix, an entrywise maximum with a constant,
  a block of consecutive columns, and two arrays set side by side all act on every row separately: row `p` of the result
  is a function of row `p` of the operand alone. This file names those four functions of one row (`dense`, `floorAt`,
  `cols`, `join`) and reads the array operations, at the ideal instance, one row at a time. A chain of such layers is then
  read off by rewriting from the outside in, and two programs that tile the rows differently (a kernel that handles a
  block of rows per grid point, a reference that handles all rows at once) meet at the same function of a row.
-/
import Idealize.ShloMosaic.Lib.Pipeline.Value
import Idealize.ShloMosaic.Lib.ValueIdx
import Idealize.ShloMosaic.PureOps.Ideal.Laws
import proofs.«110766_j28965259444614_1_alg».proof.Proof.LibPlainDotAny
import proofs.«110766_j28965259444614_1_alg».proof.Proof.LibSideBySide

noncomputable section

open scoped BigOperators

namespace Idealize.ShloMosaic.Rowwise

open Idealize.ShloMosaic Idealize.ShloMosaic.ValueIdx

/-! ## Functions of one row -/

/-- A row times a matrix: entry `c` is the sum over `k` of `a k * W k c`. -/
def dense {K N : Nat} (a : Fin K → EReal) (W : Fin K → Fin N → EReal) : Fin N → EReal :=
  fun c => ∑ k : Fin K, a k * W k c

/-- Every entry raised to at least `z`. -/
def floorAt {N : Nat} (z : EReal) (a : Fin N → EReal) : Fin N → EReal :=
  fun c => max (a c) z

/-- The `k` consecutive entries of a row that start at `off`. -/
def cols {n : Nat} (off k : Nat) (h : off + k ≤ n) (a : Fin n → EReal) : Fin k → EReal :=
  fun j => a ⟨off + j.val, by have := j.isLt; omega⟩

/-- Two rows end to end. -/
def join {n₁ n₂ n : Nat} (h : n = n₁ + n₂) (a : Fin n₁ → EReal) (b : Fin n₂ → EReal) : Fin n → EReal :=
  fun q => if hq : q.val < n₁ then a ⟨q.val, hq⟩ else b ⟨q.val - n₁, by have := q.isLt; omega⟩

/-! ## Rows of an array, and a matrix by its two coordinates -/

/-- Row `p` of an `[R, n]` array. -/
def row {R n : Nat} (A : (⟨2, ![R, n]⟩ : Shape).Idx → EReal) (p : Fin R) : Fin n → EReal :=
  fun k => A (ix2 p k)

/-- A `[K, N]` array by its two coordinates. -/
def mat {K N : Nat} (B : (⟨2, ![K, N]⟩ : Shape).Idx → EReal) : Fin K → Fin N → EReal :=
  fun k c => B (ix2 k c)

theorem row_apply {R n : Nat} (A : (⟨2, ![R, n]⟩ : Shape).Idx → EReal) (p : Fin R) (k : Fin n) : row A p k = A (ix2 p k) := rfl

/-! ## The array operations, one row at a time -/

/-- A product into a zero accumulator: row `p` of the result is row `p` of the left operand times the right operand. -/
theorem row_matmul {M K N : Nat} {φ₁ φ₂ : FTy} (prec : Option ContractPrecision) (A : FVec Ideal ⟨2, ![M, K]⟩ φ₁)
    (B : FVec Ideal ⟨2, ![K, N]⟩ φ₂) (p : Fin M) :
    row (FloatOps.matmul (DotDims.plain M K N) prec A B (constant ⟨2, ![M, N]⟩ .f32 0x00000000#32)) p
      = dense (row A p) (mat B) := by
  funext c
  exact PlainDot.matmul_zero_apply_any M K N prec A B (ix2 p c)

/-- The host's product: the same function of the row. -/
theorem row_dotGeneral {M K N : Nat} {φ₁ φ₂ : FTy} (prec : Option ContractPrecision) (sched : HostSchedule)
    (A : FVec Ideal ⟨2, ![M, K]⟩ φ₁) (B : FVec Ideal ⟨2, ![K, N]⟩ φ₂) (p : Fin M) :
    row (FloatOps.dotGeneral (DotDims.plain M K N) prec sched A B) p = dense (row A p) (mat B) := by
  funext c
  exact PlainDot.dotGeneral_apply_any M K N prec sched A B (ix2 p c)

/-- An entrywise maximum with an array that holds `z` everywhere. -/
theorem row_maximumf_const {R n : Nat} {φ : FTy} (A Z : FVec Ideal ⟨2, ![R, n]⟩ φ) (z : EReal) (hZ : ∀ i, Z i = z) (p : Fin R) :
    row (maximumf A Z) p = floorAt z (row A p) := by
  funext c
  show max (A (ix2 p c)) (Z (ix2 p c)) = max (A (ix2 p c)) z
  rw [hZ]

/-- A change of float format does nothing at the ideal instance. -/
theorem row_truncf {R n : Nat} {φ ψ : FTy} (A : FVec Ideal ⟨2, ![R, n]⟩ φ) (h : ψ.bits < φ.bits) (p : Fin R) :
    row (truncf ψ A h : FVec Ideal ⟨2, ![R, n]⟩ ψ) p = row A p := rfl

theorem mat_truncf {K N : Nat} {φ ψ : FTy} (B : FVec Ideal ⟨2, ![K, N]⟩ φ) (h : ψ.bits < φ.bits) :
    mat (truncf ψ B h : FVec Ideal ⟨2, ![K, N]⟩ ψ) = mat B := rfl

/-- An entrywise maximum with a scalar repeated over the array. -/
theorem row_maximumf_broadcast {R n : Nat} {φ : FTy} (A : FVec Ideal ⟨2, ![R, n]⟩ φ) (z : Ideal φ) (p : Fin R) :
    row (maximumf A (broadcast ⟨2, ![R, n]⟩ z)) p = floorAt z (row A p) := rfl

/-- An entrywise maximum with a rank-0 constant laid over the array, the host's spelling of the same. -/
theorem row_maximumf_scalarConstant {R n : Nat} (A : FVec Ideal ⟨2, ![R, n]⟩ .f32) (b : BitVec 32)
    (h : (⟨0, ![]⟩ : Shape).BroadcastsInDim ⟨2, ![R, n]⟩ ![]) (p : Fin R) :
    row (maximumf A (broadcastInDim ⟨2, ![R, n]⟩ ![] h (constant (F := Ideal) ⟨0, ![]⟩ .f32 b))) p
      = floorAt (Ideal.ofBits .f32 b) (row A p) := by
  funext c
  show max (A (ix2 p c)) _ = max (A (ix2 p c)) _
  congr 1

/-- A cast of an array to its own shape changes nothing. -/
theorem row_shapeCast_self {R n : Nat} (A : (⟨2, ![R, n]⟩ : Shape).Idx → EReal)
    (h : (⟨2, ![R, n]⟩ : Shape).ShapeCasts ⟨2, ![R, n]⟩) (p : Fin R) :
    row (shapeCast ⟨2, ![R, n]⟩ A h) p = row A p := by
  rw [shapeCast_self]

theorem mat_shapeCast_self {K N : Nat} (B : (⟨2, ![K, N]⟩ : Shape).Idx → EReal)
    (h : (⟨2, ![K, N]⟩ : Shape).ShapeCasts ⟨2, ![K, N]⟩) :
    mat (shapeCast ⟨2, ![K, N]⟩ B h) = mat B := by
  rw [shapeCast_self]

/-- An `[R, 1]` column flattened to an `[R]` vector and stood up again as an `[R, 1]` column is the column it was. -/
theorem row_column_roundtrip {R : Nat} (hR : R ≠ 1) (A : (⟨2, ![R, 1]⟩ : Shape).Idx → EReal)
    (h₁ : (⟨2, ![R, 1]⟩ : Shape).ShapeCasts ⟨1, ![R]⟩)
    (h₂ : (⟨1, ![R]⟩ : Shape).BroadcastsInDim ⟨2, ![R, 1]⟩ ![0]) (p : Fin R) :
    row (broadcastInDim ⟨2, ![R, 1]⟩ ![0] h₂ (shapeCast ⟨1, ![R]⟩ A h₁)) p = row A p := by
  funext k
  show broadcastInDim ⟨2, ![R, 1]⟩ ![0] h₂ (shapeCast ⟨1, ![R]⟩ A h₁) (ix2 p k) = A (ix2 p k)
  rw [broadcastInDim_apply ![0] h₂ _ (ix2 p k) (ix1 p) (fun a => by
    match a with
    | ⟨0, _⟩ => show p.val = if R = 1 then 0 else p.val; rw [if_neg hR])]
  refine shapeCast_apply A h₁ (ix1 p) (ix2 p k) ?_
  rw [Shape.rowMajor_val_two, Shape.rowMajor_val_one]
  show p.val * 1 + k.val = p.val
  have := k.isLt
  omega

/-- A block of `k` columns at `off` lies inside the row. -/
theorem slice_le {R n k off : Nat} (h : (⟨2, ![R, n]⟩ : Shape).Slices ![0, off] ⟨2, ![R, k]⟩) : off + k ≤ n :=
  h.2 1

/-- A block of columns `off ≤ · < off + k` of every row. -/
theorem row_slice {R n k : Nat} (off : Nat) (A : (⟨2, ![R, n]⟩ : Shape).Idx → EReal)
    (h : (⟨2, ![R, n]⟩ : Shape).Slices ![0, off] ⟨2, ![R, k]⟩) (p : Fin R) :
    row (extractStridedSlice ⟨2, ![R, k]⟩ ![0, off] A h) p = cols off k (slice_le h) (row A p) := by
  funext j
  show extractStridedSlice ⟨2, ![R, k]⟩ ![0, off] A h (ix2 p j) = A (ix2 p ⟨off + j.val, _⟩)
  refine extractStridedSlice_apply ![0, off] A h (ix2 p j) _ (fun a => ?_)
  match a with
  | ⟨0, _⟩ => show p.val = 0 + p.val; omega
  | ⟨1, _⟩ => rfl

/-- The joined width is the sum of the two widths. -/
theorem concat_width {R a b c : Nat}
    (h : Shape.Concatenates [(⟨2, ![R, a]⟩ : Shape), ⟨2, ![R, b]⟩] ⟨2, ![R, c]⟩ 1) : c = a + b := by
  have := h.2.2
  simpa using this.symm

/-- Two arrays side by side: every row is the two rows end to end. -/
theorem row_concat {R a b c : Nat} (A : (⟨2, ![R, a]⟩ : Shape).Idx → EReal) (B : (⟨2, ![R, b]⟩ : Shape).Idx → EReal)
    (h : Shape.Concatenates [(⟨2, ![R, a]⟩ : Shape), ⟨2, ![R, b]⟩] ⟨2, ![R, c]⟩ 1) (p : Fin R) :
    row (concatenate ⟨2, ![R, c]⟩ 1 [⟨⟨2, ![R, a]⟩, A⟩, ⟨⟨2, ![R, b]⟩, B⟩] h) p
      = join (concat_width h) (row A p) (row B p) := by
  have hc := concat_width h
  funext q
  unfold join
  by_cases hq : q.val < a
  · rw [dif_pos hq]
    exact SideBySide.apply_left A B h p q hq
  · rw [dif_neg hq]
    exact SideBySide.apply_right A B h p q (by omega) (by have := q.isLt; omega)

end Idealize.ShloMosaic.Rowwise

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibRowMaps.lean ====
/-
  Entrywise maps and column layouts, read along one row.

  An entrywise operation on `[R, n]` arrays (a product, sum, difference, quotient, negation, exponential, logistic) acts
  on every row by itself: row `p` of the result is that operation applied entry by entry to row `p` of the operands. A
  scalar repeated over the array gives a constant row. An `[R, 1]` column repeated along the columns of an `[R, n]` array
  gives, in row `p`, the column's entry of row `p` at every position; so does an `[R]` vector stood up as an `[R, 1]`
  column. All at the ideal instance, where the kernel's and the host's spellings of an operation are one function.
-/
import proofs.«110766_j28965259444614_1_alg».proof.Proof.LibRowwise
import proofs.«110766_j28965259444614_1_alg».proof.Proof.LibKeepdims

noncomputable section

namespace Idealize.ShloMosaic.Rowwise

open Idealize.ShloMosaic Idealize.ShloMosaic.ValueIdx

variable {R n : Nat} {φ : FTy}

/-! ## Entrywise operations -/

theorem row_mulf (A B : FVec Ideal ⟨2, ![R, n]⟩ φ) (p : Fin R) :
    row (mulf A B) p = fun q => row A p q * row B p q := rfl

theorem row_addf (A B : FVec Ideal ⟨2, ![R, n]⟩ φ) (p : Fin R) :
    row (addf A B) p = fun q => row A p q + row B p q := rfl

theorem row_subf (A B : FVec Ideal ⟨2, ![R, n]⟩ φ) (p : Fin R) :
    row (subf A B) p = fun q => row A p q - row B p q := rfl

/-- The kernel's quotient. -/
theorem row_divf (A B : FVec Ideal ⟨2, ![R, n]⟩ φ) (p : Fin R) :
    row (divf A B) p = fun q => Ideal.div (row A p q) (row B p q) := rfl

/-- The host's quotient: the same function. -/
theorem row_hostDivf (A B : FVec Ideal ⟨2, ![R, n]⟩ φ) (p : Fin R) :
    row (Host.divf A B) p = fun q => Ideal.div (row A p q) (row B p q) := rfl

theorem row_negf (A : FVec Ideal ⟨2, ![R, n]⟩ φ) (p : Fin R) :
    row (negf A) p = fun q => -(row A p q) := rfl

theorem row_hostNegf (A : FVec Ideal ⟨2, ![R, n]⟩ φ) (p : Fin R) :
    row (Host.negf A) p = fun q => -(row A p q) := rfl

theorem row_exp (A : FVec Ideal ⟨2, ![R, n]⟩ φ) (p : Fin R) :
    row (exp A) p = fun q => Ideal.exp (row A p q) := rfl

theorem row_hostExp (A : FVec Ideal ⟨2, ![R, n]⟩ φ) (p : Fin R) :
    row (Host.exp A) p = fun q => Ideal.exp (row A p q) := rfl

theorem row_logistic (A : FVec Ideal ⟨2, ![R, n]⟩ φ) (p : Fin R) :
    row (logistic A) p = fun q => Ideal.logistic (row A p q) := rfl

/-! ## Constant rows -/

/-- A scalar repeated over the array. -/
theorem row_broadcast (z : Ideal φ) (p : Fin R) : row (broadcast ⟨2, ![R, n]⟩ z) p = fun _ => z := rfl

/-- A rank-0 constant laid over the array, the host's spelling of the same. -/
theorem row_scalarConstant (b : BitVec 32) (h : (⟨0, ![]⟩ : Shape).BroadcastsInDim ⟨2, ![R, n]⟩ ![]) (p : Fin R) :
    row (broadcastInDim ⟨2, ![R, n]⟩ ![] h (constant (F := Ideal) ⟨0, ![]⟩ .f32 b)) p = fun _ => Ideal.ofBits .f32 b := rfl

/-! ## A column repeated along the columns -/

/-- The kernel's broadcast of an `[R, 1]` column to `[R, n]`: row `p` holds the column's entry of row `p` throughout. -/
theorem row_broadcastTo_column (v : (⟨2, ![R, 1]⟩ : Shape).Idx → EReal) (h : (⟨2, ![R, 1]⟩ : Shape).Broadcasts ⟨2, ![R, n]⟩)
    (p : Fin R) : row (broadcastTo ⟨2, ![R, n]⟩ v h) p = fun _ => row v p 0 :=
  funext fun q => Keepdims.broadcastTo_a1_ab_apply v h p q

/-- The host's broadcast of an `[R, 1]` column to `[R, n]`, both axes kept in place. -/
theorem row_broadcastInDim_column (v : (⟨2, ![R, 1]⟩ : Shape).Idx → EReal)
    (h : (⟨2, ![R, 1]⟩ : Shape).BroadcastsInDim ⟨2, ![R, n]⟩ ![0, 1]) (p : Fin R) :
    row (broadcastInDim ⟨2, ![R, n]⟩ ![0, 1] h v) p = fun _ => row v p 0 := by
  funext q
  show broadcastInDim ⟨2, ![R, n]⟩ ![0, 1] h v (ix2 p q) = v (ix2 p 0)
  refine broadcastInDim_apply ![0, 1] h v (ix2 p q) (ix2 p 0) fun a => ?_
  match a with
  | ⟨0, _⟩ =>
    show p.val = if R = 1 then 0 else p.val
    split
    · have := p.isLt; omega
    · rfl
  | ⟨1, _⟩ => rfl

/-- An `[R]` vector stood up as an `[R, 1]` column: row `p` holds the vector's entry `p`. -/
theorem row_vector_as_column (x : (⟨1, ![R]⟩ : Shape).Idx → EReal)
    (h : (⟨1, ![R]⟩ : Shape).BroadcastsInDim ⟨2, ![R, 1]⟩ ![0]) (p : Fin R) :
    row (broadcastInDim ⟨2, ![R, 1]⟩ ![0] h x) p = fun _ => x (ix1 p) := by
  funext q
  show broadcastInDim ⟨2, ![R, 1]⟩ ![0] h x (ix2 p q) = x (ix1 p)
  refine broadcastInDim_apply ![0] h x (ix2 p q) (ix1 p) fun a => ?_
  match a with
  | ⟨0, _⟩ =>
    show p.val = if R = 1 then 0 else p.val
    split
    · have := p.isLt; omega
    · rfl

end Idealize.ShloMosaic.Rowwise

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.LibRowLayouts.lean ====
/-
  Row layouts and weight layouts, read along one row.

  A one-row array `[1, n]` repeated down the rows of an `[R, n]` array puts that one row in every row, in the kernel's
  spelling and in the host's. A vector `[n]` laid out as a `[1, n]` array holds the vector's entries in its only row.
  The transpose of a matrix swaps its two coordinates, and a block of consecutive rows of a taller matrix shifts the
  row coordinate; together they give the `[K, k]` matrix whose column `c` is row `off + c` of a `[Rows, K]` weight
  (`rowsT`): a torch-style weight `[out, in]`, cut into gates along `out` and applied as `x · Wᵀ`. A block of consecutive
  entries of a row times a matrix is the row times the matching block of the matrix's columns. The hyperbolic tangent
  acts entry by entry.
-/
import proofs.«110766_j28965259444614_1_alg».proof.Proof.LibRowMaps
import proofs.«110766_j28965259444614_1_alg».proof.Proof.LibRowOfVector

noncomputable section

open scoped BigOperators

namespace Idealize.ShloMosaic.Rowwise

open Idealize.ShloMosaic Idealize.ShloMosaic.ValueIdx

variable {R n : Nat} {φ : FTy}

/-! ## The hyperbolic tangent, entry by entry -/

theorem row_tanh (A : FVec Ideal ⟨2, ![R, n]⟩ φ) (p : Fin R) :
    row (tanh A) p = fun q => Ideal.tanh (row A p q) := rfl

theorem row_hostTanh (A : FVec Ideal ⟨2, ![R, n]⟩ φ) (p : Fin R) :
    row (Host.tanh A) p = fun q => Ideal.tanh (row A p q) := rfl

/-! ## One row repeated down the rows -/

/-- A vector's entries by position. -/
def vec (x : (⟨1, ![n]⟩ : Shape).Idx → EReal) : Fin n → EReal := fun q => x (ix1 q)

/-- The kernel's broadcast of a `[1, n]` array to `[R, n]`: every row is the one row. -/
theorem row_broadcastTo_row (v : (⟨2, ![1, n]⟩ : Shape).Idx → EReal)
    (h : (⟨2, ![1, n]⟩ : Shape).Broadcasts ⟨2, ![R, n]⟩) (p : Fin R) :
    row (broadcastTo ⟨2, ![R, n]⟩ v h) p = row v 0 := by
  funext q
  show broadcastTo ⟨2, ![R, n]⟩ v h (ix2 p q) = v (ix2 0 q)
  refine broadcastTo_apply v h (ix2 p q) (ix2 0 q) fun a => ?_
  match a with
  | ⟨0, _⟩ =>
    show (0 : ℕ) = if (1 : ℕ) = 1 then 0 else p.val
    rw [if_pos rfl]
  | ⟨1, _⟩ =>
    show q.val = if n = 1 then 0 else q.val
    split
    · have := q.isLt; omega
    · rfl

/-- The host's broadcast of a `[1, n]` array to `[R, n]`, both axes kept in place: the same. -/
theorem row_broadcastInDim_row (v : (⟨2, ![1, n]⟩ : Shape).Idx → EReal)
    (h : (⟨2, ![1, n]⟩ : Shape).BroadcastsInDim ⟨2, ![R, n]⟩ ![0, 1]) (p : Fin R) :
    row (broadcastInDim ⟨2, ![R, n]⟩ ![0, 1] h v) p = row v 0 := by
  funext q
  show broadcastInDim ⟨2, ![R, n]⟩ ![0, 1] h v (ix2 p q) = v (ix2 0 q)
  refine broadcastInDim_apply ![0, 1] h v (ix2 p q) (ix2 0 q) fun a => ?_
  match a with
  | ⟨0, _⟩ =>
    show (0 : ℕ) = if (1 : ℕ) = 1 then 0 else p.val
    rw [if_pos rfl]
  | ⟨1, _⟩ =>
    show q.val = if n = 1 then 0 else q.val
    split
    · have := q.isLt; omega
    · rfl

/-- The host's layout of an `[n]` vector as a `[1, n]` array, the vector's axis sent to the columns. -/
theorem row_vector_as_row (x : (⟨1, ![n]⟩ : Shape).Idx → EReal)
    (h : (⟨1, ![n]⟩ : Shape).BroadcastsInDim ⟨2, ![1, n]⟩ ![1]) :
    row (broadcastInDim ⟨2, ![1, n]⟩ ![1] h x) 0 = vec x := by
  funext q
  show broadcastInDim ⟨2, ![1, n]⟩ ![1] h x (ix2 0 q) = x (ix1 q)
  refine broadcastInDim_apply ![1] h x (ix2 0 q) (ix1 q) fun a => ?_
  match a with
  | ⟨0, _⟩ =>
    show q.val = if n = 1 then 0 else q.val
    split
    · have := q.isLt; omega
    · rfl

/-- An `[n]` vector recast as a `[1, n]` array: the same row. -/
theorem row_reshape_vector (x : (⟨1, ![n]⟩ : Shape).Idx → EReal) (h : (⟨1, ![n]⟩ : Shape).ShapeCasts ⟨2, ![1, n]⟩) :
    row (shapeCast ⟨2, ![1, n]⟩ x h) 0 = vec x :=
  funext fun q => RowOfVector.apply x h q

/-! ## A weight read by its two coordinates -/

/-- The transpose of a matrix, by coordinates. -/
def matT {N K : Nat} (W : Fin N → Fin K → EReal) : Fin K → Fin N → EReal := fun k c => W c k

/-- The `[K, k]` matrix whose column `c` is row `off + c` of a `[Rows, K]` matrix: the transpose of a block of rows. -/
def rowsT {Rows K : Nat} (off k : Nat) (h : off + k ≤ Rows) (W : Fin Rows → Fin K → EReal) : Fin K → Fin k → EReal :=
  fun kk c => W ⟨off + c.val, by have := c.isLt; omega⟩ kk

/-- The transpose of an `[N, K]` array is read with its coordinates swapped. -/
theorem mat_transpose {N K : Nat} (B : (⟨2, ![N, K]⟩ : Shape).Idx → EReal)
    (h : (⟨2, ![N, K]⟩ : Shape).Transposes [1, 0] ⟨2, ![K, N]⟩) :
    mat (transpose ⟨2, ![K, N]⟩ [1, 0] B h) = matT (mat B) := by
  funext k c
  show transpose ⟨2, ![K, N]⟩ [1, 0] B h (ix2 k c) = B (ix2 c k)
  exact transpose_apply [1, 0] B h (ix2 k c) (ix2 c k) (fun b => match b with
    | ⟨0, _⟩ => rfl
    | ⟨1, _⟩ => rfl)

/-- A block of `k` rows at `off` lies inside the matrix. -/
theorem rowBlock_le {Rows K k off : Nat} (h : (⟨2, ![Rows, K]⟩ : Shape).Slices ![off, 0] ⟨2, ![k, K]⟩) : off + k ≤ Rows :=
  h.2 0

/-- The transpose of the block of rows `off ≤ · < off + k` of a matrix is `rowsT` of the matrix. -/
theorem mat_transpose_rowBlock {Rows K k : Nat} (off : Nat) (B : (⟨2, ![Rows, K]⟩ : Shape).Idx → EReal)
    (hs : (⟨2, ![Rows, K]⟩ : Shape).Slices ![off, 0] ⟨2, ![k, K]⟩)
    (ht : (⟨2, ![k, K]⟩ : Shape).Transposes [1, 0] ⟨2, ![K, k]⟩) :
    mat (transpose ⟨2, ![K, k]⟩ [1, 0] (extractStridedSlice ⟨2, ![k, K]⟩ ![off, 0] B hs) ht)
      = rowsT off k (rowBlock_le hs) (mat B) := by
  rw [mat_transpose]
  funext kk c
  show extractStridedSlice ⟨2, ![k, K]⟩ ![off, 0] B hs (ix2 c kk) = B (ix2 ⟨off + c.val, _⟩ kk)
  refine extractStridedSlice_apply ![off, 0] B hs (ix2 c kk) _ (fun a => ?_)
  match a with
  | ⟨0, _⟩ => rfl
  | ⟨1, _⟩ => show kk.val = 0 + kk.val; omega

/-- A block of consecutive entries of a row times a matrix: the row times that block of the matrix's columns. -/
theorem cols_dense {K N : Nat} (off k : Nat) (h : off + k ≤ N) (a : Fin K → EReal) (W : Fin K → Fin N → EReal) :
    cols off k h (dense a W) = dense a (fun kk c => W kk ⟨off + c.val, by have := c.isLt; omega⟩) := rfl

/-- Columns `off ≤ · < off + k` of the transpose of a `[Rows, K]` matrix are `rowsT` of the matrix. -/
theorem cols_dense_matT {Rows K : Nat} (off k : Nat) (h : off + k ≤ Rows) (a : Fin K → EReal) (W : Fin Rows → Fin K → EReal) :
    cols off k h (dense a (matT W)) = dense a (rowsT off k h W) := rfl

end Idealize.ShloMosaic.Rowwise

end
-- ==== Proof.LibLayers.lean ====
/-
  The layers of the network, as functions of whole arrays.

  Every dense layer of this network acts on each row of an `[R, n]` array by itself: row `p` of the result is one
  function of row `p` of the operand. `onRows f X` is the array whose every row is `f` of the matching row of `X`;
  an array is `onRows f X` as soon as each of its rows is (`eq_onRows`), so a kernel that handles a block of rows per grid
  point and a reference that handles all rows at once meet at the same `onRows f X`.

  The functions of one row: a row times a weight (`mm`), a row times a weight plus a bias row (`lin`), the hyperbolic
  tangent of a row plus a bias row (`act`). The pooling over the rows (`colMax`): in each column the greatest entry over all
  rows, from −∞, laid out as a one-row array.
-/
import proofs.«110766_j28965259444614_1_alg».proof.Proof.LibRowLayouts

noncomputable section

open scoped BigOperators

namespace Cert.Layers

open Idealize.ShloMosaic Idealize.ShloMosaic.ValueIdx Idealize.ShloMosaic.Rowwise

/-- The array whose row `p` is `f` of row `p` of `X`. -/
def onRows {R n k : Nat} (f : (Fin n → EReal) → Fin k → EReal) (X : (⟨2, ![R, n]⟩ : Shape).Idx → EReal) :
    (⟨2, ![R, k]⟩ : Shape).Idx → EReal :=
  fun i => f (row X (i 0)) (i 1)

theorem row_onRows {R n k : Nat} (f : (Fin n → EReal) → Fin k → EReal) (X : (⟨2, ![R, n]⟩ : Shape).Idx → EReal) (p : Fin R) :
    row (onRows f X) p = f (row X p) := rfl

/-- An array each of whose rows is `f` of the matching row of `X` is `onRows f X`. -/
theorem eq_onRows {R n k : Nat} (f : (Fin n → EReal) → Fin k → EReal) (X : (⟨2, ![R, n]⟩ : Shape).Idx → EReal)
    (Y : (⟨2, ![R, k]⟩ : Shape).Idx → EReal) (h : ∀ p : Fin R, row Y p = f (row X p)) : Y = onRows f X := by
  funext i
  obtain ⟨p, q, rfl⟩ : ∃ (p : Fin R) (q : Fin k), i = ix2 p q := ⟨i 0, i 1, eq_ix2 i⟩
  exact congrFun (h p) q

/-- A row times a weight. -/
def mm {K N : Nat} (W : Fin K → Fin N → EReal) : (Fin K → EReal) → Fin N → EReal :=
  fun a => dense a W

/-- A row times a weight, plus a bias row. -/
def lin {K N : Nat} (W : Fin K → Fin N → EReal) (b : Fin N → EReal) : (Fin K → EReal) → Fin N → EReal :=
  fun a c => dense a W c + b c

/-- The hyperbolic tangent of a row plus a bias row, entry by entry. -/
def act {n : Nat} (b : Fin n → EReal) : (Fin n → EReal) → Fin n → EReal :=
  fun a q => Ideal.tanh (a q + b q)

/-- In each column the greatest entry over all rows, from −∞; a one-row array. -/
def colMax {R n : Nat} (X : (⟨2, ![R, n]⟩ : Shape).Idx → EReal) : (⟨2, ![1, n]⟩ : Shape).Idx → EReal :=
  fun j => Finset.univ.fold max (⊥ : EReal) fun r : Fin R => X (ix2 r (j 1))

theorem colMax_apply {R n : Nat} (X : (⟨2, ![R, n]⟩ : Shape).Idx → EReal) (q : Fin n) :
    colMax X (ix2 0 q) = Finset.univ.fold max (⊥ : EReal) fun r : Fin R => X (ix2 r q) := rfl

end Cert.Layers

end
-- ==== Proof.Region0.lean ====
/-
  The first product, `x · W1`, as a whole array.

  Pipeline 0 takes the `[50000, 128]` operand 2000 rows per grid point (25 points) and the `[128, 128]` weight whole at
  every point; its body writes to the point's block of the result the product of the point's rows with the weight. Row
  `2000·t + p` of the result is therefore row `2000·t + p` of the operand times the weight: the blocks tile the result,
  and the result array ends at `onRows (mm W) X`.
-/
import proofs.«110766_j28965259444614_1_alg».proof.Proof.Gen.KernelIdeal.Frame
import proofs.«110766_j28965259444614_1_alg».proof.Proof.LibLayers
import Idealize.ShloMosaic.Lib.Pipeline.Value

set_option maxRecDepth 16384

noncomputable section

namespace Cert.KernelIdeal.Region0

open Cert.KernelIdeal Cert.KernelIdeal.Gen Cert.Layers
open Idealize.ShloMosaic Idealize.ShloMosaic.TcCoe Idealize.SL.Sem
open Idealize.ShloMosaic.ValueIdx Idealize.ShloMosaic.Rowwise
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product is a plain `2000×128` by `128×128` one. -/
theorem dims_plain : dot_S2000x128_S128x128_S2000x128_1_0_0_1_n_n = DotDims.plain 2000 128 128 := rfl

/-- The body's stored value, one row at a time: the row times the weight (the change of float format is the identity). -/
theorem pay_row (x0 : FVec Ideal S2000x128 .f32) (x1 : FVec Ideal S128x128 .bf16) (p : Fin 2000) :
    row (k0_pay1 (F := Ideal) x0 x1) p = mm (mat x1) (row x0 p) := by
  unfold k0_pay1
  dsimp only
  rw [dims_plain]
  refine (row_matmul none _ _ p).trans ?_
  simp only [row_truncf, row_shapeCast_self, mat_shapeCast_self]
  rfl

/-- The printed index maps over the grid: the operand's and the result's block at point `t` is block `(t, 0)`, the
    weight's block `(0, 0)`. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's block at point `t`, one row at a time: row `p` of the block is row `2000·t + p` of the array. -/
theorem block_row (c : Dev nD) (t : Fin cfg0.N) (p : Fin 2000) (r : Fin 50000) (hr : r.val = 2000 * t.val + p.val) :
    row (iblk0 V c 0 t : FVec Ideal S2000x128 .f32) p = row (V c main_arg0 : S50000x128.Idx → EReal) r := by
  obtain ⟨e0, e1, -⟩ := idx t
  funext k
  show V c main_arg0 (((cfg0.win 0).blk t).view.emb (ix2 p k)) = V c main_arg0 (ix2 r k)
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight's block at every point is the whole weight. -/
theorem block_weight (c : Dev nD) (t : Fin cfg0.N) :
    (iblk0 V c 1 t : FVec Ideal S128x128 .bf16) = (V c main_v32 : S128x128.Idx → EReal) := by
  obtain ⟨-, -, e0, e1, -⟩ := idx t
  funext y
  show V c main_v32 (((cfg0.win 1).blk t).view.emb y) = V c main_v32 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The whole result: every row of the operand times the weight. -/
abbrev result (c : Dev nD) : S50000x128.Idx → EReal :=
  onRows (R := 50000) (n := 128) (k := 128) (mm (mat (K := 128) (N := 128) (V c main_v32))) (V c main_arg0)

/-- The body's stored value at an index: the index's row of the block times the weight, at the index's column. -/
theorem pay_apply (x0 : FVec Ideal S2000x128 .f32) (x1 : FVec Ideal S128x128 .bf16) (j : S2000x128.Idx) :
    k0_pay1 (F := Ideal) x0 x1 j = mm (mat x1) (row x0 (j 0)) (j 1) := by
  exact (congrArg (k0_pay1 (F := Ideal) x0 x1) (eq_ix2 j)).trans (congrFun (pay_row x0 x1 (j 0)) (j 1))

/-- What point `t` writes back is its block of `result`. -/
theorem flushed_eq (c : Dev nD) (t : Fin cfg0.N) :
    (dat0 V c).flushed 2 t = ((cfg0.win 2).blk t).view.read (Elt Ideal) (result V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨-, -, -, -, e0, e1⟩ := idx t
  have ht : t.val < 25 := t.isLt
  funext j
  have hj0 : (j 0).val < 2000 := (j 0).isLt
  have hj1 : (j 1).val < 128 := (j 1).isLt
  refine (pay_apply (iblk0 V c 0 t) (iblk0 V c 1 t) j).trans ?_
  show mm (mat (iblk0 V c 1 t : FVec Ideal S128x128 .bf16)) (row (iblk0 V c 0 t : FVec Ideal S2000x128 .f32) (j 0)) (j 1)
    = mm (mat (V c main_v32 : S128x128.Idx → EReal)) (row (V c main_arg0 : S50000x128.Idx → EReal) ((((cfg0.win 2).blk t).view.emb j) 0)) ((((cfg0.win 2).blk t).view.emb j) 1)
  have h0 : ((((cfg0.win 2).blk t).view.emb j) 0).val = 2000 * t.val + (j 0).val := by
    show win0_2.index t (0 : Fin 2) * 2000 + 1 * (j 0).val = _
    rw [e0]; omega
  have h1 : (((cfg0.win 2).blk t).view.emb j) 1 = j 1 := by
    apply Fin.ext
    show win0_2.index t (1 : Fin 2) * 128 + 1 * (j 1).val = (j 1).val
    rw [e1]; omega
  rw [block_weight V c t, block_row V c t (j 0) _ h0, h1]

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- The 25 blocks cover the result array: row `r` is in the block of point `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 2000, by show (i 0).val / 2000 < 25; omega⟩, flush0_2 _, ?_⟩
  rw [mem_blk]
  obtain ⟨-, -, -, -, e0, e1⟩ := idx ⟨(i 0).val / 2000, by show (i 0).val / 2000 < 25; omega⟩
  intro a
  match a with
  | ⟨0, _⟩ =>
    show win0_2.index _ (0 : Fin 2) * 2000 ≤ (i 0).val ∧ (i 0).val < win0_2.index _ (0 : Fin 2) * 2000 + 2000
    rw [e0]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e1]; omega

/-- The result array after the region: every row of the operand, as the region finds it, times the weight. -/
theorem final (c : Dev nD) : (dat0 V c).arrAt 2 cfg0.N = result V c :=
  (dat0 V c).arrAt_eq_of_cover 2 (result V c) (fun t _ => flushed_eq V c t) cover

end Cert.KernelIdeal.Region0

end
-- ==== Proof.Region1.lean ====
/-
  The first activation, `tanh(A + b1)`, as a whole array.

  Pipeline 1 takes the `[50000, 128]` operand 2000 rows per grid point (25 points) and the bias, laid out as a
  `[1, 128]` array, whole at every point; its body writes to the point's block of the result the hyperbolic tangent of the
  point's rows plus the bias row. Row `2000·t + p` of the result is therefore that function of row `2000·t + p` of the
  operand: the blocks tile the result, and the result array ends at `onRows (act b) A`.
-/
import proofs.«110766_j28965259444614_1_alg».proof.Proof.Gen.KernelIdeal.Frame
import proofs.«110766_j28965259444614_1_alg».proof.Proof.LibLayers
import Idealize.ShloMosaic.Lib.Pipeline.Value

set_option maxRecDepth 16384

noncomputable section

namespace Cert.KernelIdeal.Region1

open Cert.KernelIdeal Cert.KernelIdeal.Gen Cert.Layers
open Idealize.ShloMosaic Idealize.ShloMosaic.TcCoe Idealize.SL.Sem
open Idealize.ShloMosaic.ValueIdx Idealize.ShloMosaic.Rowwise
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value, one row at a time: the hyperbolic tangent of the row plus the bias row. -/
theorem pay_row (x0 : FVec Ideal S2000x128 .f32) (x1 : FVec Ideal S1x128 .f32) (p : Fin 2000) :
    row (k1_pay1 (F := Ideal) x0 x1) p = act (row x1 0) (row x0 p) := by
  unfold k1_pay1
  dsimp only
  rw [row_tanh, row_addf, row_shapeCast_self, row_broadcastTo_row, row_shapeCast_self]
  rfl

/-- The printed index maps over the grid: the operand's and the result's block at point `t` is block `(t, 0)`, the
    bias row's block `(0, 0)`. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The operand's block at point `t`, one row at a time: row `p` of the block is row `2000·t + p` of the array. -/
theorem block_row (c : Dev nD) (t : Fin cfg1.N) (p : Fin 2000) (r : Fin 50000) (hr : r.val = 2000 * t.val + p.val) :
    row (iblk1 V c 0 t : FVec Ideal S2000x128 .f32) p = row (V c main_v46 : S50000x128.Idx → EReal) r := by
  obtain ⟨e0, e1, -⟩ := idx t
  funext k
  show V c main_v46 (((cfg1.win 0).blk t).view.emb (ix2 p k)) = V c main_v46 (ix2 r k)
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The bias row's block at every point is the whole bias row. -/
theorem block_weight (c : Dev nD) (t : Fin cfg1.N) :
    (iblk1 V c 1 t : FVec Ideal S1x128 .f32) = (V c main_v47 : S1x128.Idx → EReal) := by
  obtain ⟨-, -, e0, e1, -⟩ := idx t
  funext y
  show V c main_v47 (((cfg1.win 1).blk t).view.emb y) = V c main_v47 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The whole result: the hyperbolic tangent of every row of the operand plus the bias row. -/
abbrev result (c : Dev nD) : S50000x128.Idx → EReal :=
  onRows (R := 50000) (n := 128) (k := 128) (act (row (R := 1) (n := 128) (V c main_v47) 0)) (V c main_v46)

/-- The body's stored value at an index: that function of the index's row of the block, at the index's column. -/
theorem pay_apply (x0 : FVec Ideal S2000x128 .f32) (x1 : FVec Ideal S1x128 .f32) (j : S2000x128.Idx) :
    k1_pay1 (F := Ideal) x0 x1 j = act (row x1 0) (row x0 (j 0)) (j 1) := by
  exact (congrArg (k1_pay1 (F := Ideal) x0 x1) (eq_ix2 j)).trans (congrFun (pay_row x0 x1 (j 0)) (j 1))

/-- What point `t` writes back is its block of `result`. -/
theorem flushed_eq (c : Dev nD) (t : Fin cfg1.N) :
    (dat1 V c).flushed 2 t = ((cfg1.win 2).blk t).view.read (Elt Ideal) (result V c) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨-, -, -, -, e0, e1⟩ := idx t
  have ht : t.val < 25 := t.isLt
  funext j
  have hj0 : (j 0).val < 2000 := (j 0).isLt
  have hj1 : (j 1).val < 128 := (j 1).isLt
  refine (pay_apply (iblk1 V c 0 t) (iblk1 V c 1 t) j).trans ?_
  show act (row (iblk1 V c 1 t : FVec Ideal S1x128 .f32) 0) (row (iblk1 V c 0 t : FVec Ideal S2000x128 .f32) (j 0)) (j 1)
    = act (row (V c main_v47 : S1x128.Idx → EReal) 0) (row (V c main_v46 : S50000x128.Idx → EReal) ((((cfg1.win 2).blk t).view.emb j) 0)) ((((cfg1.win 2).blk t).view.emb j) 1)
  have h0 : ((((cfg1.win 2).blk t).view.emb j) 0).val = 2000 * t.val + (j 0).val := by
    show win1_2.index t (0 : Fin 2) * 2000 + 1 * (j 0).val = _
    rw [e0]; omega
  have h1 : (((cfg1.win 2).blk t).view.emb j) 1 = j 1 := by
    apply Fin.ext
    show win1_2.index t (1 : Fin 2) * 128 + 1 * (j 1).val = (j 1).val
    rw [e1]; omega
  rw [block_weight V c t, block_row V c t (j 0) _ h0, h1]

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- The 25 blocks cover the result array: row `r` is in the block of point `r / 2000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  refine ⟨⟨(i 0).val / 2000, by show (i 0).val / 2000 < 25; omega⟩, flush1_2 _, ?_⟩
  rw [mem_blk]
  obtain ⟨-, -, -, -, e0, e1⟩ := idx ⟨(i 0).val / 2000, by show (i 0).val / 2000 < 25; omega⟩
  intro a
  match a with
  | ⟨0, _⟩ =>
    show win1_2.index _ (0 : Fin 2) * 2000 ≤ (i 0).val ∧ (i 0).val < win1_2.index _ (0 : Fin 2) * 2000 + 2000
    rw [e0]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e1]; omega

/-- The result array after the region: that function of every row of the operand as the region finds it. -/
theorem final (c : Dev nD) : (dat1 V c).arrAt 2 cfg1.N = result V c :=
  (dat1 V c).arrAt_eq_of_cover 2 (result V c) (fun t _ => flushed_eq V c t) cover

end Cert.KernelIdeal.Region1

end
-- ==== Proof.Region2.lean ====
/-
  The linear layer `h · Wl + bl`, as a whole array.

  Pipeline 2 takes the `[50000, 128]` operand 2000 rows per grid point (25 points), and the `[128, 128]` weight and the
  bias, laid out as a `[1, 128]` array, whole at every point; its body writes to the point's block of the result the
  product of the point's rows with the weight, plus the bias row. Row `2000·t + p` of the result is therefore that
  function of row `2000·t + p` of the operand: the blocks tile the result, and the result array ends at
  `onRows (lin W b) X`.
-/
import proofs.«110766_j28965259444614_1_alg».proof.Proof.Gen.KernelIdeal.Frame
import proofs.«110766_j28965259444614_1_alg».proof.Proof.LibLayers
import Idealize.ShloMosaic.Lib.Pipeline.Value

set_option maxRecDepth 16384

noncomputable section

namespace Cert.KernelIdeal.Region2

open Cert.KernelIdeal Cert.KernelIdeal.Gen Cert.Layers
open Idealize.ShloMosaic Idealize.ShloMosaic.TcCoe Idealize.SL.Sem
open Idealize.ShloMosaic.ValueIdx Idealize.ShloMosaic.Rowwise
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product is a plain `2000×128` by `128×128` one. -/
theorem dims_plain : dot_S2000x128_S128x128_S2000x128_1_0_0_1_n_n = DotDims.plain 2000 128 128 := rfl

/-- The body's stored value, one row at a time: the row times the weight, plus the bias row (the change of float format
    is the identity). -/
theorem pay_row (x0 : FVec Ideal S2000x128 .f32) (x1 : FVec Ideal S128x128 .bf16) (x2 : FVec Ideal S1x128 .f32) (p : Fin 2000) :
    row (k2_pay1 (F := Ideal) x0 x1 x2) p = lin (mat x1) (row x2 0) (row x0 p) := by
  unfold k2_pay1
  dsimp only
  rw [dims_plain, row_addf, row_broadcastTo_row, row_shapeCast_self]
  funext q
  refine congrArg (· + row x2 0 q) ?_
  refine (congrFun (row_matmul none _ _ p) q).trans ?_
  rw [row_truncf, row_shapeCast_self, mat_shapeCast_self]

/-- The body's stored value at an index: that function of the index's row of the block, at the index's column. -/
theorem pay_apply (x0 : FVec Ideal S2000x128 .f32) (x1 : FVec Ideal S128x128 .bf16) (x2 : FVec Ideal S1x128 .f32) (j : S2000x128.Idx) :
    k2_pay1 (F := Ideal) x0 x1 x2 j = lin (mat x1) (row x2 0) (row x0 (j 0)) (j 1) := by
  exact (congrArg (k2_pay1 (F := Ideal) x0 x1 x2) (eq_ix2 j)).trans (congrFun (pay_row x0 x1 x2 (j 0)) (j 1))

/-- The printed index maps over the grid: the operand's and the result's block at point `t` is block `(t, 0)`, the
    weight's and the bias row's block `(0, 0)`. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The operand's block at point `t`, one row at a time: row `p` of the block is row `2000·t + p` of the array. -/
theorem block_row (c : Dev nD) (t : Fin cfg2.N) (p : Fin 2000) (r : Fin 50000) (hr : r.val = 2000 * t.val + p.val) :
    row (iblk2 V c 0 t : FVec Ideal S2000x128 .f32) p = row (V c main_v48 : S50000x128.Idx → EReal) r := by
  obtain ⟨e0, e1, -⟩ := idx t
  funext k
  show V c main_v48 (((cfg2.win 0).blk t).view.emb (ix2 p k)) = V c main_v48 (ix2 r k)
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The weight's block at every point is the whole weight. -/
theorem block_weight (c : Dev nD) (t : Fin cfg2.N) :
    (iblk2 V c 1 t : FVec Ideal S128x128 .bf16) = (V c main_v49 : S128x128.Idx → EReal) := by
  obtain ⟨-, -, e0, e1, -⟩ := idx t
  funext y
  show V c main_v49 (((cfg2.win 1).blk t).view.emb y) = V c main_v49 y
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- The bias row's block at every point is the whole bias row. -/
theorem block_bias (c : Dev nD) (t : Fin cfg2.N) :
    (iblk2 V c 2 t : FVec Ideal S1x128 .f32) = (V c main_v50 : S1x128.Idx → EReal) := by
  obtain ⟨-, -, -, -, e0, e1, -⟩ := idx t
  funext y
  show V c main_v50 (((cfg2.win 2).blk t).view.emb y) = V c main_v50 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The whole result: every row of the operand times the weight, plus the bias row. -/
abbrev result (c : Dev nD) : S50000x128.Idx → EReal :=
  onRows (R := 50000) (n := 128) (k := 128)
    (lin (mat (K := 128) (N := 128) (V c main_v49)) (row (R := 1) (n := 128) (V c main_v50) 0)) (V c main_v48)

/-- What point `t` writes back is its block of `result`. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz, View.ld_unit_zero (S := S1x128) hz]
  obtain ⟨-, -, -, -, -, -, e0, e1⟩ := idx t
  have ht : t.val < 25 := t.isLt
  funext j
  have hj0 : (j 0).val < 2000 := (j 0).isLt
  have hj1 : (j 1).val < 128 := (j 1).isLt
  refine (pay_apply (iblk2 V c 0 t) (iblk2 V c 1 t) (iblk2 V c 2 t) j).trans ?_
  show lin (mat (iblk2 V c 1 t : FVec Ideal S128x128 .bf16)) (row (iblk2 V c 2 t : FVec Ideal S1x128 .f32) 0) (row (iblk2 V c 0 t : FVec Ideal S2000x128 .f32) (j 0)) (j 1)
    = lin (mat (V c main_v49 : S128x128.Idx → EReal)) (row (V c main_v50 : S1x128.Idx → EReal) 0) (row (V c main_v48 : S50000x128.Idx → EReal) ((((cfg2.win 3).blk t).view.emb j) 0)) ((((cfg2.win 3).blk t).view.emb j) 1)
  have h0 : ((((cfg2.win 3).blk t).view.emb j) 0).val = 2000 * t.val + (j 0).val := by
    show win2_3.index t (0 : Fin 2) * 2000 + 1 * (j 0).val = _
    rw [e0]; omega
  have h1 : (((cfg2.win 3).blk t).view.emb j) 1 = j 1 := by
    apply Fin.ext
    show win2_3.index t (1 : Fin 2) * 128 + 1 * (j 1).val = (j 1).val
    rw [e1]; omega
  rw [block_weight V c t, block_bias V c t, block_row V c t (j 0) _ h0, h1]

/-- An index of the result array is in point `t`'s block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v51).slice (win2_3.rect t)).set ↔ _
  rw [View.set_slice_whole, Rect.mem_set_unit]
  exact Iff.rfl

/-- The 25 blocks cover the result array: row `r` is in the block of point `r / 2000`. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  refine ⟨⟨(i 0).val / 2000, by show (i 0).val / 2000 < 25; omega⟩, flush2_3 _, ?_⟩
  rw [mem_blk]
  obtain ⟨-, -, -, -, -, -, e0, e1⟩ := idx ⟨(i 0).val / 2000, by show (i 0).val / 2000 < 25; omega⟩
  intro a
  match a with
  | ⟨0, _⟩ =>
    show win2_3.index _ (0 : Fin 2) * 2000 ≤ (i 0).val ∧ (i 0).val < win2_3.index _ (0 : Fin 2) * 2000 + 2000
    rw [e0]; show (i 0).val / 2000 * 2000 ≤ (i 0).val ∧ (i 0).val < (i 0).val / 2000 * 2000 + 2000; omega
  | ⟨1, _⟩ =>
    show win2_3.index _ (1 : Fin 2) * 128 ≤ (i 1).val ∧ (i 1).val < win2_3.index _ (1 : Fin 2) * 128 + 128
    rw [e1]; omega

/-- The result array after the region: that function of every row of the operand as the region finds it. -/
theorem final (c : Dev nD) : (dat2 V c).arrAt 3 cfg2.N = result V c :=
  (dat2 V c).arrAt_eq_of_cover 3 (result V c) (fun t _ => flushed_eq V c t) cover

end Cert.KernelIdeal.Region2

end
-- ==== Proof.Region5.lean ====
/-
  The output layer `h · Wo + bo`, as a whole array.

  Pipeline 5 takes the `[50000, 128]` operand 2000 rows per grid point (25 points), and the `[128, 64]` weight and the
  bias, laid out as a `[1, 64]` array, whole at every point; its body writes to the point's block of the result the
  product of the point's rows with the weight, plus the bias row. Row `2000·t + p` of the result is therefore that
  function of row `2000·t + p` of the operand: the blocks tile the result, and the result array ends at
  `onRows (lin W b) X`.
-/
import proofs.«110766_j28965259444614_1_alg».proof.Proof.Gen.KernelIdeal.Frame
import proofs.«110766_j28965259444614_1_alg».proof.Proof.LibLayers
import Idealize.ShloMosaic.Lib.Pipeline.Value

set_option maxRecDepth 16384

noncomputable section

namespace Cert.KernelIdeal.Region5

open Cert.KernelIdeal Cert.KernelIdeal.Gen Cert.Layers
open Idealize.ShloMosaic Idealize.ShloMosaic.TcCoe Idealize.SL.Sem
open Idealize.ShloMosaic.ValueIdx Idealize.ShloMosaic.Rowwise
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product is a plain `2000×128` by `128×64` one. -/
theorem dims_plain : dot_S2000x128_S128x64_S2000x64_1_0_0_1_n_n = DotDims.plain 2000 128 64 := rfl

/-- The body's stored value, one row at a time: the row times the weight, plus the bias row (the change of float format
    is the identity). -/
theorem pay_row (x0 : FVec Ideal S2000x128 .f32) (x1 : FVec Ideal S128x64 .bf16) (x2 : FVec Ideal S1x64 .f32) (p : Fin 2000) :
    row (k5_pay1 (F := Ideal) x0 x1 x2) p = lin (mat x1) (row x2 0) (row x0 p) := by
  unfold k5_pay1
  dsimp only
  rw [dims_plain, row_addf, row_broadcastTo_row, row_shapeCast_self]
  funext q
  refine congrArg (· + row x2 0 q) ?_
  refine (congrFun (row_matmul none _ _ p) q).trans ?_
  rw [row_truncf, row_shapeCast_self, mat_shapeCast_self]

/-- The body's stored value at an index: that function of the index's row of the block, at the index's column. -/
theorem pay_apply (x0 : FVec Ideal S2000x128 .f32) (x1 : FVec Ideal S128x64 .bf16) (x2 : FVec Ideal S1x64 .f32) (j : S2000x64.Idx) :
    k5_pay1 (F := Ideal) x0 x1 x2 j = lin (mat x1) (row x2 0) (row x0 (j 0)) (j 1) := by
  exact (congrArg (k5_pay1 (F := Ideal) x0 x1 x2) (eq_ix2 j)).trans (congrFun (pay_row x0 x1 x2 (j 0)) (j 1))

/-- The printed index maps over the grid: the operand's and the result's block at point `t` is block `(t, 0)`, the
    weight's and the bias row's block `(0, 0)`. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The operand's block at point `t`, one row at a time: row `p` of the block is row `2000·t + p` of the array. -/
theorem block_row (c : Dev nD) (t : Fin cfg5.N) (p : Fin 2000) (r : Fin 50000) (hr : r.val = 2000 * t.val + p.val) :
    row (iblk5 V c 0 t : FVec Ideal S2000x128 .f32) p = row (V c main_v68 : S50000x128.Idx → EReal) r := by
  obtain ⟨e0, e1, -⟩ := idx t
  funext k
  show V c main_v68 (((cfg5.win 0).blk t).view.emb (ix2 p k)) = V c main_v68 (ix2 r k)
  congr 1
  funext a
  apply Fin.ext
  match a with
  | ⟨0, _⟩ => show win5_0.index t (0 : Fin 2) * 2000 + 1 * p.val = r.val; rw [e0, hr]; omega
  | ⟨1, _⟩ => show win5_0.index t (1 : Fin 2) * 128 + 1 * k.val = k.val; rw [e1]; omega

/-- The weight's block at every point is the whole weight. -/
theorem block_weight (c : Dev nD) (t : Fin cfg5.N) :
    (iblk5 V c 1 t : FVec Ideal S128x64 .bf16) = (V c main_v69 : S128x64.Idx → EReal) := by
  obtain ⟨-, -, e0, e1, -⟩ := idx t
  funext y
  show V c main_v69 (((cfg5.win 1).blk t).view.emb y) = V c main_v69 y
  congr 1
  funext a
  apply Fin.ext
  match a with
  | ⟨0, _⟩ => show win5_1.index t (0 : Fin 2) * 128 + 1 * (y 0).val = (y 0).val; rw [e0]; omega
  | ⟨1, _⟩ => show win5_1.index t (1 : Fin 2) * 64 + 1 * (y 1).val = (y 1).val; rw [e1]; omega

/-- The bias row's block at every point is the whole bias row. -/
theorem block_bias (c : Dev nD) (t : Fin cfg5.N) :
    (iblk5 V c 2 t : FVec Ideal S1x64 .f32) = (V c main_v70 : S1x64.Idx → EReal) := by
  obtain ⟨-, -, -, -, e0, e1, -⟩ := idx t
  funext y
  show V c main_v70 (((cfg5.win 2).blk t).view.emb y) = V c main_v70 y
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 64 + 1 * (y 1).val = (y 1).val; rw [e1]; omega

/-- The whole result: every row of the operand times the weight, plus the bias row. -/
abbrev result (c : Dev nD) : S50000x64.Idx → EReal :=
  onRows (R := 50000) (n := 128) (k := 64)
    (lin (mat (K := 128) (N := 64) (V c main_v69)) (row (R := 1) (n := 64) (V c main_v70) 0)) (V c main_v68)

/-- What point `t` writes back is its block of `result`. -/
theorem flushed_eq (c : Dev nD) (t : Fin cfg5.N) :
    (dat5 V c).flushed 3 t = ((cfg5.win 3).blk t).view.read (Elt Ideal) (result V c) := by
  show (cfg5.win 3).cut (grid5.coords t) ((dat5 V c).after 3 t) = _
  rw [after5_3]
  unfold out5_3
  rw [View.canon_unit_zero hz]
  simp only [View.ld_unit_zero (S := S2000x128) hz, View.ld_unit_zero (S := S128x64) hz, View.ld_unit_zero (S := S1x64) hz]
  obtain ⟨-, -, -, -, -, -, e0, e1⟩ := idx t
  have ht : t.val < 25 := t.isLt
  funext j
  have hj0 : (j 0).val < 2000 := (j 0).isLt
  have hj1 : (j 1).val < 64 := (j 1).isLt
  refine (pay_apply (iblk5 V c 0 t) (iblk5 V c 1 t) (iblk5 V c 2 t) j).trans ?_
  show lin (mat (iblk5 V c 1 t : FVec Ideal S128x64 .bf16)) (row (iblk5 V c 2 t : FVec Ideal S1x64 .f32) 0) (row (iblk5 V c 0 t : FVec Ideal S2000x128 .f32) (j 0)) (j 1)
    = lin (mat (V c main_v69 : S128x64.Idx → EReal)) (row (V c main_v70 : S1x64.Idx → EReal) 0) (row (V c main_v68 : S50000x128.Idx → EReal) ((((cfg5.win 3).blk t).view.emb j) 0)) ((((cfg5.win 3).blk t).view.emb j) 1)
  have h0 : ((((cfg5.win 3).blk t).view.emb j) 0).val = 2000 * t.val + (j 0).val := by
    show win5_3.index t (0 : Fin 2) * 2000 + 1 * (j 0).val = _
    rw [e0]; omega
  have h1 : (((cfg5.win 3).blk t).view.emb j) 1 = j 1 := by
    apply Fin.ext
    show win5_3.index t (1 : Fin 2) * 64 + 1 * (j 1).val = (j 1).val
    rw [e1]; omega
  rw [block_weight V c t, block_bias V c t, block_row V c t (j 0) _ h0, h1]

/-- An index of the result array is in point `t`'s block iff each coordinate is in the block's range on its axis. -/
theorem mem_blk (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v71).slice (win5_3.rect t)).set ↔ _
  rw [View.set_slice_whole, Rect.mem_set_unit]
  exact Iff.rfl

/-- The 25 blocks cover the result array: row `r` is in the block of point `r / 2000`. -/
theorem cover (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  refine ⟨⟨(i 0).val / 2000, by show (i 0).val / 2000 < 25; omega⟩, flush5_3 _, ?_⟩
  rw [mem_blk]
  obtain ⟨-, -, -, -, -, -, e0, e1⟩ := idx ⟨(i 0).val / 2000, by show (i 0).val / 2000 < 25; omega⟩
  intro a
  match a with
  | ⟨0, _⟩ =>
    show win5_3.index _ (0 : Fin 2) * 2000 ≤ (i 0).val ∧ (i 0).val < win5_3.index _ (0 : Fin 2) * 2000 + 2000
    rw [e0]; show (i 0).val / 2000 * 2000 ≤ (i 0).val ∧ (i 0).val < (i 0).val / 2000 * 2000 + 2000; omega
  | ⟨1, _⟩ =>
    show win5_3.index _ (1 : Fin 2) * 64 ≤ (i 1).val ∧ (i 1).val < win5_3.index _ (1 : Fin 2) * 64 + 64
    rw [e1]; omega

/-- The result array after the region: that function of every row of the operand as the region finds it. -/
theorem final (c : Dev nD) : (dat5 V c).arrAt 3 cfg5.N = result V c :=
  (dat5 V c).arrAt_eq_of_cover 3 (result V c) (fun t _ => flushed_eq V c t) cover

end Cert.KernelIdeal.Region5

end
-- ==== Proof.Region6.lean ====
/-
  The pooling region, as a whole array.

  Pipeline 6 takes the `[50000, 64]` array 2000 rows per grid point (25 points) and carries a `[1, 64]` buffer from point to
  point. The first point fills the buffer with −∞; every point then stores the greater of the buffer and, column by column,
  the greatest entry of the point's 2000 rows. After point `n` the buffer therefore holds, in column `q`, the greatest of −∞ and
  the entries of column `q` in the rows below `2000·(n+1)`; the buffer is written back once, after the last point, when
  those are all 50000 rows: the result array ends at `colMax` of the array the region finds.
-/
import proofs.«110766_j28965259444614_1_alg».proof.Proof.Gen.KernelIdeal.Frame
import proofs.«110766_j28965259444614_1_alg».proof.Proof.LibLayers
import Idealize.ShloMosaic.Lib.Pipeline.Value
import Idealize.ShloMosaic.Lib.Tactic
import Idealize.ShloMosaic.PureOps.Ideal.Laws

set_option maxRecDepth 16384

noncomputable section

namespace Cert.KernelIdeal.Region6

open Cert.KernelIdeal Cert.KernelIdeal.Gen Cert.Layers
open Idealize.ShloMosaic Idealize.ShloMosaic.TcCoe Idealize.SL.Sem
open Idealize.ShloMosaic.ValueIdx
open Idealize.ShloMosaic.Pipeline (Dat)

/-! ## The greatest entry below a bound, by its two properties -/

/-- `m` is the greatest of −∞ and the entries `f r` with `r` below `N`: it bounds them all, and it is −∞ or one of them. -/
def IsMaxBelow (f : Fin 50000 → EReal) (N : ℕ) (m : EReal) : Prop :=
  (∀ r : Fin 50000, r.val < N → f r ≤ m) ∧ (m = ⊥ ∨ ∃ r : Fin 50000, r.val < N ∧ m = f r)

/-- A fold of the maximum is its initial value or one of the folded entries. -/
theorem fold_max_attained {ι : Type} (s : Finset ι) (b : EReal) (g : ι → EReal) :
    s.fold max b g = b ∨ ∃ x ∈ s, s.fold max b g = g x := by
  classical
  induction s using Finset.induction_on with
  | empty => exact Or.inl Finset.fold_empty
  | insert a s ha ih =>
    rw [Finset.fold_insert ha]
    rcases max_choice (g a) (s.fold max b g) with h | h
    · exact Or.inr ⟨a, Finset.mem_insert_self a s, h⟩
    · rw [h]
      rcases ih with ih | ⟨x, hx, ih⟩
      · exact Or.inl ih
      · exact Or.inr ⟨x, Finset.mem_insert_of_mem hx, ih⟩

/-- Below no row there is only −∞. -/
theorem isMaxBelow_zero (f : Fin 50000 → EReal) : IsMaxBelow f 0 ⊥ :=
  ⟨fun r hr => absurd hr (Nat.not_lt_zero _), Or.inl rfl⟩

/-- One more run of 2000 rows: the greater of the maximum so far and the run's own maximum. -/
theorem IsMaxBelow.step {f : Fin 50000 → EReal} {n : ℕ} {m : EReal} (hn : n < 25) (g : Fin 2000 → EReal)
    (hm : IsMaxBelow f (2000 * n) m)
    (hg : ∀ (p : Fin 2000) (r : Fin 50000), r.val = 2000 * n + p.val → g p = f r) :
    IsMaxBelow f (2000 * (n + 1)) (max m (Finset.univ.fold max ⊥ g)) := by
  refine ⟨fun r hr => ?_, ?_⟩
  · by_cases hlt : r.val < 2000 * n
    · exact le_max_of_le_left (hm.1 r hlt)
    · have hp : r.val - 2000 * n < 2000 := by omega
      refine le_max_of_le_right ((Finset.le_fold_max _).mpr (Or.inr ⟨⟨r.val - 2000 * n, hp⟩, Finset.mem_univ _, ?_⟩))
      rw [hg ⟨r.val - 2000 * n, hp⟩ r (by show r.val = 2000 * n + (r.val - 2000 * n); omega)]
  · rcases max_choice m (Finset.univ.fold max ⊥ g) with h | h
    · rw [h]
      rcases hm.2 with e | ⟨r, hr, e⟩
      · exact Or.inl e
      · exact Or.inr ⟨r, by omega, e⟩
    · rw [h]
      rcases fold_max_attained Finset.univ ⊥ g with e | ⟨p, -, e⟩
      · exact Or.inl e
      · have hp : p.val < 2000 := p.isLt
        exact Or.inr ⟨⟨2000 * n + p.val, by omega⟩, by show 2000 * n + p.val < 2000 * (n + 1); omega,
          e.trans (hg p ⟨2000 * n + p.val, by omega⟩ rfl)⟩

/-- Once the bound is past every row, that is the fold of the maximum from −∞ over all rows. -/
theorem IsMaxBelow.eq_fold {f : Fin 50000 → EReal} {N : ℕ} {m : EReal} (hN : 50000 ≤ N) (hm : IsMaxBelow f N m) :
    m = Finset.univ.fold max (⊥ : EReal) f := by
  refine le_antisymm ?_ ((Finset.fold_max_le _).mpr ⟨bot_le, fun r _ => hm.1 r (lt_of_lt_of_le r.isLt hN)⟩)
  rcases hm.2 with e | ⟨r, -, e⟩
  · rw [e]; exact bot_le
  · rw [e]; exact (Finset.le_fold_max _).mpr (Or.inr ⟨r, Finset.mem_univ _, le_refl _⟩)

/-! ## What each case leaves in the buffer -/

section Pieces

variable {F : FTy → Type} [FloatOps F]

theorem hz : (![0, 0] : Fin 2 → Nat) = fun _ => 0 := funext fun a => by fin_cases a <;> rfl

/-- The first point stores −∞ and then the greater of that and its block's column maxima. -/
theorem outA_eq (c : Dev nD) (i : grid6.Coords) (arg1 : Memref sig .tc .vmem S2000x64 .f32) (harg1 : arg1.IsWhole) (arg2 : Memref sig .tc .vmem S1x64 .f32) (harg2 : arg2.IsWhole) (hc0 : cond6_0 i)
    (x0 : Vec F S2000x64 .f32) :
    out6_A_1 c i arg1 harg1 arg2 harg2 hc0 x0 = k6_pay2 x0 (k6_pay1 (F := F)) := by
  unfold out6_A_1
  rw [View.read_writes_eq_canon _ _ _ (cover6_A_1 c i arg1 harg1 arg2 harg2 hc0 x0)]
  unfold kernelRun6_A
  dsimp only
  sl_unfold_words
  rw [View.canon_cons_unit_zero (S := S1x64) hz, View.readCov_unit_zero (S := S1x64) _ hz]
  simp only [View.readAt_eq_ld, harg1.read_unread, View.ld_unit_zero (S := S2000x64) hz]

/-- A later point stores the greater of what the buffer held and its block's column maxima. -/
theorem outB_eq (c : Dev nD) (i : grid6.Coords) (arg1 : Memref sig .tc .vmem S2000x64 .f32) (harg1 : arg1.IsWhole) (arg2 : Memref sig .tc .vmem S1x64 .f32) (harg2 : arg2.IsWhole) (hc0 : ¬cond6_0 i)
    (x0 : Vec F S2000x64 .f32) (xo1 : Vec F S1x64 .f32) :
    out6_B_1 c i arg1 harg1 arg2 harg2 hc0 x0 xo1 = k6_pay2 x0 xo1 := by
  unfold out6_B_1
  rw [View.read_writes_eq_canon _ _ _ (cover6_B_1 c i arg1 harg1 arg2 harg2 hc0 x0 xo1)]
  unfold kernelRun6_B
  dsimp only
  sl_unfold_words
  rw [View.canon_unit_zero (S := S1x64) hz]
  simp only [View.readAt_eq_ld, harg1.read_unread, harg2.read_unread, View.ld_unit_zero (S := S2000x64) hz, View.ld_unit_zero (S := S1x64) hz]

end Pieces

/-! ## The stored values at an index -/

/-- The bit pattern the first point stores is −∞. -/
theorem negInf : Ideal.ofBits .f32 0xFF800000#32 = (⊥ : EReal) := by simp [Ideal.ofBits, Ideal.ieee]

/-- The first point's fill is −∞ everywhere. -/
theorem pay1_apply (j : S1x64.Idx) : k6_pay1 (F := Ideal) j = (⊥ : EReal) := negInf

/-- Dropping the row axis of a `[2000, 64]` block: column `q` with row `p` put back is `(p, q)`. -/
theorem lift_col (h : S2000x64.Reduces [0] S64) (q : Fin 64) (p : Fin 2000) : h.lift (ix1 q) p = ix2 p q := by
  funext a
  match a with
  | ⟨0, _⟩ => exact Fin.ext rfl
  | ⟨1, _⟩ => exact Fin.ext rfl

/-- A `[64]` vector laid out as `[1, 64]` reads, at `(z, q)`, the vector at `q`: the two indices have the same row-major position. -/
theorem cast_row (x : S64.Idx → EReal) (h : S64.ShapeCasts S1x64) (z : Fin 1) (q : Fin 64) :
    shapeCast S1x64 x h (ix2 z q) = x (ix1 q) := by
  refine shapeCast_apply x h (ix2 z q) (ix1 q) ?_
  rw [Shape.rowMajor_val_two, Shape.rowMajor_val_one]
  have hz0 : z.val = 0 := by omega
  show q.val = z.val * 64 + q.val
  rw [hz0]; omega

/-- The stored value at column `q`: the greater of the buffer there and the greatest entry of the block's column `q`, from −∞. -/
theorem pay2_apply (x0 : FVec Ideal S2000x64 .f32) (xo : FVec Ideal S1x64 .f32) (z : Fin 1) (q : Fin 64) :
    k6_pay2 (F := Ideal) x0 xo (ix2 z q) = max (xo (ix2 z q)) (Finset.univ.fold max (⊥ : EReal) fun p : Fin 2000 => x0 (ix2 p q)) := by
  unfold k6_pay2
  dsimp only
  rw [shapeCast_self, shapeCast_self]
  refine (maximumf_apply _ _ (ix2 z q)).trans ?_
  refine congrArg (max (xo (ix2 z q))) ?_
  refine (cast_row _ shapeCasts_S64_S1x64 z q).trans ?_
  refine (Ideal.multiReduction_maximumf_single x0 0xFF800000#32 reduces_S2000x64_S64 (.inl rfl) rfl (ix1 q)).trans ?_
  show Finset.univ.fold max (Ideal.ofBits .f32 0xFF800000#32) (fun p : Fin 2000 => x0 (reduces_S2000x64_S64.lift (ix1 q) p))
    = Finset.univ.fold max (⊥ : EReal) fun p : Fin 2000 => x0 (ix2 p q)
  rw [negInf]
  exact congrArg (Finset.univ.fold max (⊥ : EReal)) (funext fun p => congrArg x0 (lift_col reduces_S2000x64_S64 q p))

/-- The column maximum at an index whose column is `q`, whatever its unit coordinate. -/
theorem colMax_at (X : S50000x64.Idx → EReal) (i : S1x64.Idx) (q : Fin 64) (h : i 1 = q) :
    colMax (R := 50000) (n := 64) X i = Finset.univ.fold max (⊥ : EReal) fun r : Fin 50000 => X (ix2 r q) := by
  subst h; rfl

/-! ## The blocks, the invariant and the result -/

variable (V : (c : Dev nD) → (b : Ref sig .tc) → Buf (Elt Ideal) ((c : Thread nD τ).loc b))

/-- The printed index maps over the grid: the array's block at point `t` is block `(t, 0)`, the buffer's block `(0, 0)`. -/
theorem idx : ∀ t : Fin cfg6.N, win6_0.index t (0 : Fin 2) = t.val ∧ win6_0.index t (1 : Fin 2) = 0
    ∧ win6_1.index t (0 : Fin 2) = 0 ∧ win6_1.index t (1 : Fin 2) = 0 :=
  (by decide +kernel : ∀ t : Fin grid6.N, _)

/-- Column `q` of the array the region finds. -/
abbrev col (c : Dev nD) (q : Fin 64) : Fin 50000 → EReal := fun r => (V c main_v71 : S50000x64.Idx → EReal) (ix2 r q)

/-- The array's block at point `t`: entry `(p, q)` of the block is entry `(2000·t + p, q)` of the array. -/
theorem block_apply (c : Dev nD) (t : Fin cfg6.N) (p : Fin 2000) (q : Fin 64) (r : Fin 50000) (hr : r.val = 2000 * t.val + p.val) :
    (iblk6 V c 0 t : FVec Ideal S2000x64 .f32) (ix2 p q) = col V c q r := by
  obtain ⟨e0, e1, -⟩ := idx t
  show V c main_v71 (((cfg6.win 0).blk t).view.emb (ix2 p q)) = V c main_v71 (ix2 r q)
  congr 1
  funext a
  apply Fin.ext
  match a with
  | ⟨0, _⟩ => show win6_0.index t (0 : Fin 2) * 2000 + 1 * p.val = r.val; rw [e0, hr]; omega
  | ⟨1, _⟩ => show win6_0.index t (1 : Fin 2) * 64 + 1 * q.val = q.val; rw [e1]; omega

/-- THE INVARIANT. After point `n` the buffer holds, in column `q`, the greatest of −∞ and the entries of column `q` in the rows
    below `2000·(n+1)`. -/
theorem inv (c : Dev nD) (q : Fin 64) : ∀ (n : ℕ) (hn : n < cfg6.N) (z : Fin 1),
    IsMaxBelow (col V c q) (2000 * (n + 1)) (outsAt6 V c n hn (ix2 z q)) := by
  intro n
  induction n with
  | zero =>
    intro hn z
    have e := outsAt6_A V c ⟨0, hn⟩ (Nat.zero_mod 25)
    rw [show outsAt6 V c 0 hn = _ from e,
      outA_eq (F := Ideal) c (grid6.coords ⟨0, hn⟩) (ms6_0 ⟨0, hn⟩) (hs6_0 ⟨0, hn⟩) (ms6_1 ⟨0, hn⟩) (hs6_1 ⟨0, hn⟩) ((hcond6_0 ⟨0, hn⟩).mpr (Nat.zero_mod 25)) (iblk6 V c 0 ⟨0, hn⟩),
      pay2_apply, pay1_apply]
    exact (isMaxBelow_zero (col V c q)).step (by omega) _ fun p r hr => block_apply V c ⟨0, hn⟩ p q r hr
  | succ n ih =>
    intro hn z
    have hN : n + 1 < 25 := lt_of_lt_of_eq hn (show cfg6.N = 25 from N_6)
    have h0 : ¬(n + 1) % 25 = 0 := by omega
    have e := outsAt6_B V c ⟨n + 1, hn⟩ h0
    rw [show outsAt6 V c (n + 1) hn = _ from e,
      outB_eq (F := Ideal) c (grid6.coords ⟨n + 1, hn⟩) (ms6_0 ⟨n + 1, hn⟩) (hs6_0 ⟨n + 1, hn⟩) (ms6_1 ⟨n + 1, hn⟩) (hs6_1 ⟨n + 1, hn⟩) (fun h => h0 ((hcond6_0 ⟨n + 1, hn⟩).mp h)) (iblk6 V c 0 ⟨n + 1, hn⟩)
        (outsAt6 V c ((⟨n + 1, hn⟩ : Fin cfg6.N).val - 1) (Nat.lt_of_le_of_lt (Nat.sub_le _ _) (⟨n + 1, hn⟩ : Fin cfg6.N).isLt)),
      pay2_apply]
    exact (ih (Nat.lt_of_succ_lt hn) z).step (by omega) _ fun p r hr => block_apply V c ⟨n + 1, hn⟩ p q r hr

/-- After the last point the buffer is the column maximum of the whole array. -/
theorem last_eq (c : Dev nD) (t : Fin cfg6.N) (ht : t.val = 24) (z : Fin 1) (q : Fin 64) :
    outsAt6 V c t.val t.isLt (ix2 z q) = Finset.univ.fold max (⊥ : EReal) (col V c q) :=
  (inv V c q t.val t.isLt z).eq_fold (by omega)

/-- So after the last point the buffer is `colMax` of the array the region finds. -/
theorem buffer_last (c : Dev nD) (t : Fin cfg6.N) (ht : t.val = 24) :
    outsAt6 V c t.val t.isLt = colMax (R := 50000) (n := 64) (V c main_v71) := by
  funext j
  obtain ⟨z, q, rfl⟩ : ∃ (z : Fin 1) (q : Fin 64), j = ix2 z q := ⟨j 0, j 1, eq_ix2 j⟩
  exact (last_eq V c t ht z q).trans (colMax_at (V c main_v71) (ix2 z q) q rfl).symm

/-- The one write-back, at the last point, writes the column maximum: block `(0, 0)` of the `[1, 64]` array, read through zero
    offsets, is the array. -/
theorem flushed_eq (c : Dev nD) (t : Fin cfg6.N) (hf : (cfg6.win 1).flush t = true) :
    (dat6 V c).flushed 1 t = ((cfg6.win 1).blk t).view.read (Elt Ideal) (colMax (R := 50000) (n := 64) (V c main_v71)) := by
  have hN : t.val < 25 := lt_of_lt_of_eq t.isLt (show cfg6.N = 25 from N_6)
  have h24 : t.val = 24 := by have := (flush6_1 t).mp hf; omega
  show (cfg6.win 1).cut (grid6.coords t) ((dat6 V c).after 1 t) = _
  rw [after6_1, buffer_last V c t h24]
  obtain ⟨-, -, e0, e1⟩ := idx t
  have hz' : (fun a => win6_1.index t a * main_v72.ty.shape.size a) = fun _ => 0 := funext fun a => by
    match a with
    | ⟨0, _⟩ => show win6_1.index t (0 : Fin 2) * 1 = 0; rw [e0]
    | ⟨1, _⟩ => show win6_1.index t (1 : Fin 2) * 64 = 0; rw [e1]
  exact (Memref.read_access_unit_zero (Elt Ideal) main_v72 hz' (fun a => by rw [congrFun hz' a]; simp)
    (colMax (R := 50000) (n := 64) (V c main_v71))).symm

/-- An index of the result array is in point `t`'s block iff each coordinate is in the block's range on its axis. -/
theorem mem_blk (t : Fin cfg6.N) (i : S1x64.Idx) :
    i ∈ ((cfg6.win 1).blk t).view.set ↔ ∀ a : Fin 2, win6_1.index t a * S1x64.size a ≤ (i a).val ∧ (i a).val < win6_1.index t a * S1x64.size a + S1x64.size a := by
  show i ∈ ((View.whole main_v72).slice (win6_1.rect t)).set ↔ _
  rw [View.set_slice_whole, Rect.mem_set_unit]
  exact Iff.rfl

/-- The last point's block covers the result array. -/
theorem cover (i : S1x64.Idx) : ∃ t : Fin cfg6.N, (cfg6.win 1).flush t = true ∧ i ∈ ((cfg6.win 1).blk t).view.set := by
  have hi0 : (i 0).val < 1 := (i 0).isLt
  have hi1 : (i 1).val < 64 := (i 1).isLt
  have h24 : 24 < cfg6.N := by rw [show cfg6.N = 25 from N_6]; omega
  refine ⟨⟨24, h24⟩, (flush6_1 ⟨24, h24⟩).mpr rfl, ?_⟩
  rw [mem_blk]
  obtain ⟨-, -, e0, e1⟩ := idx ⟨24, h24⟩
  intro a
  match a with
  | ⟨0, _⟩ =>
    show win6_1.index _ (0 : Fin 2) * 1 ≤ (i 0).val ∧ (i 0).val < win6_1.index _ (0 : Fin 2) * 1 + 1
    rw [e0]; omega
  | ⟨1, _⟩ =>
    show win6_1.index _ (1 : Fin 2) * 64 ≤ (i 1).val ∧ (i 1).val < win6_1.index _ (1 : Fin 2) * 64 + 64
    rw [e1]; omega

/-- The result array after the region: the column maximum of the array the region finds. -/
theorem final6 (c : Dev nD) : (dat6 V c).arrAt 1 cfg6.N = colMax (R := 50000) (n := 64) (V c main_v71) :=
  (dat6 V c).arrAt_eq_of_cover 1 (colMax (R := 50000) (n := 64) (V c main_v71)) (flushed_eq V c) cover

end Cert.KernelIdeal.Region6

end
-- ==== Proof.Graph.lean ====
/-
  The graph part of a GCN layer, as functions of the edge list and of a node-feature array.

  Both programs compute it with the same host operations. From the `[2, 800000]` edge list: the source and destination
  node of every edge, with one self loop per node appended (`src`, `dst`: 850000 entries each); an index that is negative
  has the node count added (`wrapped`: the usual reading of a negative index); the degree of a node, the number of edges
  that end in it (`degree`, a scatter-add of ones); `dinv`, its inverse square root where the degree is positive, zero
  elsewhere; the weight of an edge, `dinv` at its source times `dinv` at its destination (`norm`). Then, for a
  `[50000, 128]` array of node features `h`, the aggregation `agg`: every edge carries its source's row of `h`, scaled
  by the edge's weight, and the rows that arrive at a node are added up (a gather, a product, a scatter-add).

  Nothing here is opened in the proof: the kernel's program and the reference apply these same functions, and the
  certificate only needs that they are applied to equal arrays.
-/
import proofs.«110766_j28965259444614_1_alg».proof.KernelIdeal

noncomputable section

namespace Cert.KernelIdeal.Graph

open Cert.KernelIdeal Idealize.ShloMosaic
open Cert.KernelIdeal.Facts₀ Cert.KernelIdeal.Facts

variable {F : FTy → Type} [FloatOps F] [Cert.KernelIdeal.Facts]

/-- The source node of every edge, then every node once (the self loops). -/
def src (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination node of every edge, then every node once. -/
def dst (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A list of node numbers as a column of gather indices, a negative number read from the end. -/
def wrapped (idx : (⟨S850000, .i32⟩ : BufTy).Contents (Elt F)) : (⟨S850000x1, .i32⟩ : BufTy).Contents (Elt F) :=
  broadcastInDim S850000x1 ![0] bcast_S850000_S850000x1_0 (select (cmpi .slt idx (broadcastInDim S850000 ![] bcast_S_S850000 (constantI S_ 32 0#32))) (addi idx (broadcastInDim S850000 ![] bcast_S_S850000 (constantI S_ 32 50000#32))) idx)

/-- The number of edges that end in each node. -/
def degree (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dst ei)) (broadcastInDim S850000 ![] bcast_S_S850000 (constant S_ .f32 0x3F800000#32))

/-- The inverse square root of the degree (of at least one) where the degree is positive, zero elsewhere. -/
def dinv (ei : (⟨S2x800000, .i32⟩ : BufTy).Contents (Elt F)) : (⟨S50000, .f32⟩ : BufTy).Contents (Elt F) :=
  select (cmpf (F := F) .ogt (degree ei) (broadcastInDim S50000 ![] bcast_S_S50000 (constant S_ .f32 0x00000000#32))) (Host.rsqrt (maximumf (degree ei) (broadcastInDim S50000 ![] bcast_S_S50000 (constant S_ .f32 0x3F800000#32)))) (broadcastInDim S50000 ![] bcast_S_S50000 (id (constant S_ .f32 0x00000000#32)))

/-- The weight of every edge: `dinv` at its source times `dinv` at its destination. -/
def norm (ei : (⟨S2x800000, .i32⟩ : BufTy).Contents (Elt F)) : (⟨S850000, .f32⟩ : BufTy).Contents (Elt F) :=
  mulf (Host.gather gather_S50000_S850000x1_S850000_n_0_n_n_0_1_1 (dinv ei) (wrapped (src ei))) (Host.gather gather_S50000_S850000x1_S850000_n_0_n_n_0_1_1 (dinv ei) (wrapped (dst ei)))

/-- The aggregation: at every node the sum, over the edges that end in it, of the source's row scaled by the edge's weight. -/
def agg (ei : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dst ei)) (mulf (Host.gather gather_S50000x128_S850000x1_S850000x128_1_0_n_n_0_1_1128 h (wrapped (src ei))) (broadcastInDim S850000x128 ![0, 1] bcast_S850000x1_S850000x128_0_1 (broadcastInDim S850000x1 ![0] bcast_S850000_S850000x1_0 (norm ei))))

end Cert.KernelIdeal.Graph

end
-- ==== Proof.Walk.lean ====
/-
  What each kernel region finds in its operands' arrays.

  Between the regions the program runs host operations; the buffer contents at every boundary are a fold of those
  operations and of the regions' write-backs over the launch memory. This file reads that fold at the buffers the regions
  take their operands from: an argument nobody writes is still as launched; a weight narrowed to bf16, a bias laid out as
  one row, are that operation of the argument; the edge lists, the edge weights and with them the aggregation are the
  functions of the edge-list argument that `Graph` names, computed once before the first region and carried, unwritten,
  across the regions to the two places that use them.
-/
import proofs.«110766_j28965259444614_1_alg».proof.Proof.Gen.KernelIdeal.Frame
import proofs.«110766_j28965259444614_1_alg».proof.Proof.Graph
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of the named stretch writes holds after the stretch what it held before. -/
local macro "unwritten " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The edge lists and the degree, after the first stretch -/

/-- The first stretch leaves the edges' sources, self loops appended, in `main_v3`. -/
theorem W1_v3 (c : Dev nD) :
    W1 m ρ c (Proc.devRef .tc main_v3) = Graph.src (m ((c : Thread nD τ).loc main_arg1)) := by
  show StableHlo.after hostOps0 _ (Proc.devRef .tc main_v3) = _
  after_results <;> rfl

/-- And the edges' destinations, self loops appended, in `main_v6`. -/
theorem W1_v6 (c : Dev nD) :
    W1 m ρ c (Proc.devRef .tc main_v6) = Graph.dst (m ((c : Thread nD τ).loc main_arg1)) := by
  show StableHlo.after hostOps0 _ (Proc.devRef .tc main_v6) = _
  after_results <;> rfl

/-- Where the degree is positive. -/
theorem W1_v12 (c : Dev nD) :
    W1 m ρ c (Proc.devRef .tc main_v12)
      = cmpf (F := F) .ogt (Graph.degree (m ((c : Thread nD τ).loc main_arg1)))
          (broadcastInDim S50000 ![] bcast_S_S50000 (constant S_ .f32 0x00000000#32)) := by
  show StableHlo.after hostOps0 _ (Proc.devRef .tc main_v12) = _
  after_results <;> rfl

/-- The inverse square root of the degree, of at least one. -/
theorem W1_v15 (c : Dev nD) :
    W1 m ρ c (Proc.devRef .tc main_v15)
      = Host.rsqrt (maximumf (Graph.degree (m ((c : Thread nD τ).loc main_arg1)))
          (broadcastInDim S50000 ![] bcast_S_S50000 (constant (F := F) S_ .f32 0x3F800000#32))) := by
  show StableHlo.after hostOps0 _ (Proc.devRef .tc main_v15) = _
  after_results <;> rfl

/-- The zero the inlined `where` takes. -/
theorem W1_cst_3 (c : Dev nD) :
    W1 m ρ c (Proc.devRef .tc main_cst_3) = constant (F := F) S_ .f32 0x00000000#32 := by
  show StableHlo.after hostOps0 _ (Proc.devRef .tc main_cst_3) = _
  after_results <;> rfl

/-! ## The stretches that compute with the graph, from any contents

Each is stated for whatever the buffers hold when the stretch starts: if its operands hold the graph's functions of an
edge list, its result holds the next one. -/

section Stretches

variable (V : Valuation τ sig (Elt F)) (ei : (⟨S2x800000, .i32⟩ : BufTy).Contents (Elt F))

/-- The inlined `where`: the inverse square root where the degree is positive, the zero elsewhere. -/
theorem where_v16
    (h12 : V (Proc.devRef .tc main_v12) = cmpf (F := F) .ogt (Graph.degree ei)
      (broadcastInDim S50000 ![] bcast_S_S50000 (constant S_ .f32 0x00000000#32)))
    (h15 : V (Proc.devRef .tc main_v15) = Host.rsqrt (maximumf (Graph.degree ei)
      (broadcastInDim S50000 ![] bcast_S_S50000 (constant (F := F) S_ .f32 0x3F800000#32))))
    (h0 : V (Proc.devRef .tc main_cst_3) = constant (F := F) S_ .f32 0x00000000#32) :
    StableHlo.after hostOps0_1 V (Proc.devRef .tc main_v16) = Graph.dinv ei := by
  after_results
  simp only [TRef.ofBuf, TRef.toBuf, cast_eq]
  rw [h12, h15, h0]
  rfl

/-- The edges' weights: the two gathers of `dinv`, at the sources and at the destinations, multiplied. -/
theorem weights_v31
    (h16 : V (Proc.devRef .tc main_v16) = Graph.dinv ei)
    (h3 : V (Proc.devRef .tc main_v3) = Graph.src ei)
    (h6 : V (Proc.devRef .tc main_v6) = Graph.dst ei) :
    StableHlo.after hostOps0_2 V (Proc.devRef .tc main_v31) = Graph.norm ei := by
  after_results_simp
  rw [h16, h3, h6]
  rfl

/-- The first aggregation, of what `main_v33` holds. -/
theorem agg_v46
    (h3 : V (Proc.devRef .tc main_v3) = Graph.src ei)
    (h6 : V (Proc.devRef .tc main_v6) = Graph.dst ei)
    (h31 : V (Proc.devRef .tc main_v31) = Graph.norm ei) :
    StableHlo.after hostOps1 V (Proc.devRef .tc main_v46) = Graph.agg ei (V (Proc.devRef .tc main_v33)) := by
  after_results_simp
  rw [h3, h6, h31]
  rfl

/-- The second aggregation, of what `main_v53` holds: the same operations on other buffers. -/
theorem agg_v66
    (h3 : V (Proc.devRef .tc main_v3) = Graph.src ei)
    (h6 : V (Proc.devRef .tc main_v6) = Graph.dst ei)
    (h31 : V (Proc.devRef .tc main_v31) = Graph.norm ei) :
    StableHlo.after hostOps4 V (Proc.devRef .tc main_v66) = Graph.agg ei (V (Proc.devRef .tc main_v53)) := by
  after_results_simp
  rw [h3, h6, h31]
  rfl

end Stretches

/-! ## The run: what the graph's buffers hold at each boundary up to region 0's exit -/

theorem W2_v3 (c : Dev nD) :
    W2 m ρ c (Proc.devRef .tc main_v3) = Graph.src (m ((c : Thread nD τ).loc main_arg1)) :=
  (unwritten hostOps0_1 : W2 m ρ c (Proc.devRef .tc main_v3) = W1 m ρ c (Proc.devRef .tc main_v3)).trans (W1_v3 m ρ c)

theorem W2_v6 (c : Dev nD) :
    W2 m ρ c (Proc.devRef .tc main_v6) = Graph.dst (m ((c : Thread nD τ).loc main_arg1)) :=
  (unwritten hostOps0_1 : W2 m ρ c (Proc.devRef .tc main_v6) = W1 m ρ c (Proc.devRef .tc main_v6)).trans (W1_v6 m ρ c)

theorem W2_v16 (c : Dev nD) :
    W2 m ρ c (Proc.devRef .tc main_v16) = Graph.dinv (m ((c : Thread nD τ).loc main_arg1)) :=
  where_v16 (W1 m ρ c) _ (W1_v12 m ρ c) (W1_v15 m ρ c) (W1_cst_3 m ρ c)

theorem W3_v3 (c : Dev nD) :
    W3 m ρ c (Proc.devRef .tc main_v3) = Graph.src (m ((c : Thread nD τ).loc main_arg1)) :=
  (unwritten hostOps0_2 : W3 m ρ c (Proc.devRef .tc main_v3) = W2 m ρ c (Proc.devRef .tc main_v3)).trans (W2_v3 m ρ c)

theorem W3_v6 (c : Dev nD) :
    W3 m ρ c (Proc.devRef .tc main_v6) = Graph.dst (m ((c : Thread nD τ).loc main_arg1)) :=
  (unwritten hostOps0_2 : W3 m ρ c (Proc.devRef .tc main_v6) = W2 m ρ c (Proc.devRef .tc main_v6)).trans (W2_v6 m ρ c)

theorem W3_v31 (c : Dev nD) :
    W3 m ρ c (Proc.devRef .tc main_v31) = Graph.norm (m ((c : Thread nD τ).loc main_arg1)) :=
  weights_v31 (W2 m ρ c) _ (W2_v16 m ρ c) (W2_v3 m ρ c) (W2_v6 m ρ c)

/-! Region 0 has none of the three among its arrays. -/

theorem W4_v3 (c : Dev nD) :
    W4 m ρ c (Proc.devRef .tc main_v3) = Graph.src (m ((c : Thread nD τ).loc main_arg1)) :=
  (W4_of_ne m ρ c main_v3 (by decide)).trans (W3_v3 m ρ c)

theorem W4_v6 (c : Dev nD) :
    W4 m ρ c (Proc.devRef .tc main_v6) = Graph.dst (m ((c : Thread nD τ).loc main_arg1)) :=
  (W4_of_ne m ρ c main_v6 (by decide)).trans (W3_v6 m ρ c)

theorem W4_v31 (c : Dev nD) :
    W4 m ρ c (Proc.devRef .tc main_v31) = Graph.norm (m ((c : Thread nD τ).loc main_arg1)) :=
  (W4_of_ne m ρ c main_v31 (by decide)).trans (W3_v31 m ρ c)

/-! ## On to region 3's exit: three stretches and three regions, none of which writes the edge lists or the weights -/

theorem W10_v3 (c : Dev nD) :
    W10 m ρ c (Proc.devRef .tc main_v3) = Graph.src (m ((c : Thread nD τ).loc main_arg1)) :=
  calc W10 m ρ c (Proc.devRef .tc main_v3)
    _ = W9 m ρ c (Proc.devRef .tc main_v3) := W10_of_ne m ρ c main_v3 (by decide)
    _ = W8 m ρ c (Proc.devRef .tc main_v3) := unwritten hostOps3
    _ = W7 m ρ c (Proc.devRef .tc main_v3) := W8_of_ne m ρ c main_v3 (by decide)
    _ = W6 m ρ c (Proc.devRef .tc main_v3) := unwritten hostOps2
    _ = W5 m ρ c (Proc.devRef .tc main_v3) := W6_of_ne m ρ c main_v3 (by decide)
    _ = W4 m ρ c (Proc.devRef .tc main_v3) := unwritten hostOps1
    _ = Graph.src (m ((c : Thread nD τ).loc main_arg1)) := W4_v3 m ρ c

theorem W10_v6 (c : Dev nD) :
    W10 m ρ c (Proc.devRef .tc main_v6) = Graph.dst (m ((c : Thread nD τ).loc main_arg1)) :=
  calc W10 m ρ c (Proc.devRef .tc main_v6)
    _ = W9 m ρ c (Proc.devRef .tc main_v6) := W10_of_ne m ρ c main_v6 (by decide)
    _ = W8 m ρ c (Proc.devRef .tc main_v6) := unwritten hostOps3
    _ = W7 m ρ c (Proc.devRef .tc main_v6) := W8_of_ne m ρ c main_v6 (by decide)
    _ = W6 m ρ c (Proc.devRef .tc main_v6) := unwritten hostOps2
    _ = W5 m ρ c (Proc.devRef .tc main_v6) := W6_of_ne m ρ c main_v6 (by decide)
    _ = W4 m ρ c (Proc.devRef .tc main_v6) := unwritten hostOps1
    _ = Graph.dst (m ((c : Thread nD τ).loc main_arg1)) := W4_v6 m ρ c

theorem W10_v31 (c : Dev nD) :
    W10 m ρ c (Proc.devRef .tc main_v31) = Graph.norm (m ((c : Thread nD τ).loc main_arg1)) :=
  calc W10 m ρ c (Proc.devRef .tc main_v31)
    _ = W9 m ρ c (Proc.devRef .tc main_v31) := W10_of_ne m ρ c main_v31 (by decide)
    _ = W8 m ρ c (Proc.devRef .tc main_v31) := unwritten hostOps3
    _ = W7 m ρ c (Proc.devRef .tc main_v31) := W8_of_ne m ρ c main_v31 (by decide)
    _ = W6 m ρ c (Proc.devRef .tc main_v31) := unwritten hostOps2
    _ = W5 m ρ c (Proc.devRef .tc main_v31) := W6_of_ne m ρ c main_v31 (by decide)
    _ = W4 m ρ c (Proc.devRef .tc main_v31) := unwritten hostOps1
    _ = Graph.norm (m ((c : Thread nD τ).loc main_arg1)) := W4_v31 m ρ c

/-! ## The arguments: nobody writes one, so each is as launched at the boundary whose stretch reads it -/

theorem W2_arg2 (c : Dev nD) :
    W2 m ρ c (Proc.devRef .tc main_arg2) = m ((c : Thread nD τ).loc main_arg2) :=
  calc W2 m ρ c (Proc.devRef .tc main_arg2)
    _ = W1 m ρ c (Proc.devRef .tc main_arg2) := unwritten hostOps0_1
    _ = W0 m ρ c (Proc.devRef .tc main_arg2) := unwritten hostOps0
    _ = m ((c : Thread nD τ).loc main_arg2) := rfl

theorem W4_arg3 (c : Dev nD) :
    W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := unwritten hostOps0_2
    _ = W1 m ρ c (Proc.devRef .tc main_arg3) := unwritten hostOps0_1
    _ = W0 m ρ c (Proc.devRef .tc main_arg3) := unwritten hostOps0
    _ = m ((c : Thread nD τ).loc main_arg3) := rfl

theorem W6_arg4 (c : Dev nD) :
    W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := unwritten hostOps1
    _ = W3 m ρ c (Proc.devRef .tc main_arg4) := W4_of_ne m ρ c main_arg4 (by decide)
    _ = W2 m ρ c (Proc.devRef .tc main_arg4) := unwritten hostOps0_2
    _ = W1 m ρ c (Proc.devRef .tc main_arg4) := unwritten hostOps0_1
    _ = W0 m ρ c (Proc.devRef .tc main_arg4) := unwritten hostOps0
    _ = m ((c : Thread nD τ).loc main_arg4) := rfl

theorem W6_arg5 (c : Dev nD) :
    W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := unwritten hostOps1
    _ = W3 m ρ c (Proc.devRef .tc main_arg5) := W4_of_ne m ρ c main_arg5 (by decide)
    _ = W2 m ρ c (Proc.devRef .tc main_arg5) := unwritten hostOps0_2
    _ = W1 m ρ c (Proc.devRef .tc main_arg5) := unwritten hostOps0_1
    _ = W0 m ρ c (Proc.devRef .tc main_arg5) := unwritten hostOps0
    _ = m ((c : Thread nD τ).loc main_arg5) := rfl

theorem W8_arg6 (c : Dev nD) :
    W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := unwritten hostOps2
    _ = W5 m ρ c (Proc.devRef .tc main_arg6) := W6_of_ne m ρ c main_arg6 (by decide)
    _ = W4 m ρ c (Proc.devRef .tc main_arg6) := unwritten hostOps1
    _ = W3 m ρ c (Proc.devRef .tc main_arg6) := W4_of_ne m ρ c main_arg6 (by decide)
    _ = W2 m ρ c (Proc.devRef .tc main_arg6) := unwritten hostOps0_2
    _ = W1 m ρ c (Proc.devRef .tc main_arg6) := unwritten hostOps0_1
    _ = W0 m ρ c (Proc.devRef .tc main_arg6) := unwritten hostOps0
    _ = m ((c : Thread nD τ).loc main_arg6) := rfl

theorem W10_arg7 (c : Dev nD) :
    W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := unwritten hostOps3
    _ = W7 m ρ c (Proc.devRef .tc main_arg7) := W8_of_ne m ρ c main_arg7 (by decide)
    _ = W6 m ρ c (Proc.devRef .tc main_arg7) := unwritten hostOps2
    _ = W5 m ρ c (Proc.devRef .tc main_arg7) := W6_of_ne m ρ c main_arg7 (by decide)
    _ = W4 m ρ c (Proc.devRef .tc main_arg7) := unwritten hostOps1
    _ = W3 m ρ c (Proc.devRef .tc main_arg7) := W4_of_ne m ρ c main_arg7 (by decide)
    _ = W2 m ρ c (Proc.devRef .tc main_arg7) := unwritten hostOps0_2
    _ = W1 m ρ c (Proc.devRef .tc main_arg7) := unwritten hostOps0_1
    _ = W0 m ρ c (Proc.devRef .tc main_arg7) := unwritten hostOps0
    _ = m ((c : Thread nD τ).loc main_arg7) := rfl

theorem W12_arg8 (c : Dev nD) :
    W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := unwritten hostOps4
    _ = W9 m ρ c (Proc.devRef .tc main_arg8) := W10_of_ne m ρ c main_arg8 (by decide)
    _ = W8 m ρ c (Proc.devRef .tc main_arg8) := unwritten hostOps3
    _ = W7 m ρ c (Proc.devRef .tc main_arg8) := W8_of_ne m ρ c main_arg8 (by decide)
    _ = W6 m ρ c (Proc.devRef .tc main_arg8) := unwritten hostOps2
    _ = W5 m ρ c (Proc.devRef .tc main_arg8) := W6_of_ne m ρ c main_arg8 (by decide)
    _ = W4 m ρ c (Proc.devRef .tc main_arg8) := unwritten hostOps1
    _ = W3 m ρ c (Proc.devRef .tc main_arg8) := W4_of_ne m ρ c main_arg8 (by decide)
    _ = W2 m ρ c (Proc.devRef .tc main_arg8) := unwritten hostOps0_2
    _ = W1 m ρ c (Proc.devRef .tc main_arg8) := unwritten hostOps0_1
    _ = W0 m ρ c (Proc.devRef .tc main_arg8) := unwritten hostOps0
    _ = m ((c : Thread nD τ).loc main_arg8) := rfl

theorem W12_arg9 (c : Dev nD) :
    W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := unwritten hostOps4
    _ = W9 m ρ c (Proc.devRef .tc main_arg9) := W10_of_ne m ρ c main_arg9 (by decide)
    _ = W8 m ρ c (Proc.devRef .tc main_arg9) := unwritten hostOps3
    _ = W7 m ρ c (Proc.devRef .tc main_arg9) := W8_of_ne m ρ c main_arg9 (by decide)
    _ = W6 m ρ c (Proc.devRef .tc main_arg9) := unwritten hostOps2
    _ = W5 m ρ c (Proc.devRef .tc main_arg9) := W6_of_ne m ρ c main_arg9 (by decide)
    _ = W4 m ρ c (Proc.devRef .tc main_arg9) := unwritten hostOps1
    _ = W3 m ρ c (Proc.devRef .tc main_arg9) := W4_of_ne m ρ c main_arg9 (by decide)
    _ = W2 m ρ c (Proc.devRef .tc main_arg9) := unwritten hostOps0_2
    _ = W1 m ρ c (Proc.devRef .tc main_arg9) := unwritten hostOps0_1
    _ = W0 m ρ c (Proc.devRef .tc main_arg9) := unwritten hostOps0
    _ = m ((c : Thread nD τ).loc main_arg9) := rfl

/-- Region 0 finds the operand `x` as launched. -/
theorem W3_arg0 (c : Dev nD) :
    W3 m ρ c (Proc.devRef .tc main_arg0) = m ((c : Thread nD τ).loc main_arg0) :=
  calc W3 m ρ c (Proc.devRef .tc main_arg0)
    _ = W2 m ρ c (Proc.devRef .tc main_arg0) := unwritten hostOps0_2
    _ = W1 m ρ c (Proc.devRef .tc main_arg0) := unwritten hostOps0_1
    _ = W0 m ρ c (Proc.devRef .tc main_arg0) := unwritten hostOps0
    _ = m ((c : Thread nD τ).loc main_arg0) := rfl

/-- Region 0 finds its weight at `W1` narrowed to bf16. -/
theorem W3_v32 (c : Dev nD) :
    W3 m ρ c (Proc.devRef .tc main_v32) = truncf .bf16 (m ((c : Thread nD τ).loc main_arg2)) bitsLt_bf16_f32 := by
  rw [← W2_arg2 m ρ c]
  show StableHlo.after hostOps0_2 _ (Proc.devRef .tc main_v32) = _
  after_results <;> rfl

/-- Region 1 finds the aggregation of region 0's result. -/
theorem W5_v46 (c : Dev nD) :
    W5 m ρ c (Proc.devRef .tc main_v46) = Graph.agg (m ((c : Thread nD τ).loc main_arg1)) (W4 m ρ c (Proc.devRef .tc main_v33)) :=
  agg_v46 (W4 m ρ c) _ (W4_v3 m ρ c) (W4_v6 m ρ c) (W4_v31 m ρ c)

/-- Region 1 finds the bias `b1` laid out as one row. -/
theorem W5_v47 (c : Dev nD) :
    W5 m ρ c (Proc.devRef .tc main_v47) = shapeCast S1x128 (m ((c : Thread nD τ).loc main_arg3)) shapeCasts_S128_S1x128 := by
  rw [← W4_arg3 m ρ c]
  show StableHlo.after hostOps1 _ (Proc.devRef .tc main_v47) = _
  after_results <;> rfl

/-- Region 2 finds region 1's result as region 1 left it. -/
theorem W7_v48 (c : Dev nD) :
    W7 m ρ c (Proc.devRef .tc main_v48) = W6 m ρ c (Proc.devRef .tc main_v48) :=
  unwritten hostOps2

/-- Region 2 finds its weight `Wl` narrowed to bf16. -/
theorem W7_v49 (c : Dev nD) :
    W7 m ρ c (Proc.devRef .tc main_v49) = truncf .bf16 (m ((c : Thread nD τ).loc main_arg4)) bitsLt_bf16_f32 := by
  rw [← W6_arg4 m ρ c]
  show StableHlo.after hostOps2 _ (Proc.devRef .tc main_v49) = _
  after_results <;> rfl

/-- Region 2 finds the bias `bl` laid out as one row. -/
theorem W7_v50 (c : Dev nD) :
    W7 m ρ c (Proc.devRef .tc main_v50) = shapeCast S1x128 (m ((c : Thread nD τ).loc main_arg5)) shapeCasts_S128_S1x128 := by
  rw [← W6_arg5 m ρ c]
  show StableHlo.after hostOps2 _ (Proc.devRef .tc main_v50) = _
  after_results <;> rfl

/-- Region 3 finds region 2's result as region 2 left it. -/
theorem W9_v51 (c : Dev nD) :
    W9 m ρ c (Proc.devRef .tc main_v51) = W8 m ρ c (Proc.devRef .tc main_v51) :=
  unwritten hostOps3

/-- Region 3 finds its weight `W2` narrowed to bf16. -/
theorem W9_v52 (c : Dev nD) :
    W9 m ρ c (Proc.devRef .tc main_v52) = truncf .bf16 (m ((c : Thread nD τ).loc main_arg6)) bitsLt_bf16_f32 := by
  rw [← W8_arg6 m ρ c]
  show StableHlo.after hostOps3 _ (Proc.devRef .tc main_v52) = _
  after_results <;> rfl

/-- Region 4 finds the aggregation of region 3's result. -/
theorem W11_v66 (c : Dev nD) :
    W11 m ρ c (Proc.devRef .tc main_v66) = Graph.agg (m ((c : Thread nD τ).loc main_arg1)) (W10 m ρ c (Proc.devRef .tc main_v53)) :=
  agg_v66 (W10 m ρ c) _ (W10_v3 m ρ c) (W10_v6 m ρ c) (W10_v31 m ρ c)

/-- Region 4 finds the bias `b2` laid out as one row. -/
theorem W11_v67 (c : Dev nD) :
    W11 m ρ c (Proc.devRef .tc main_v67) = shapeCast S1x128 (m ((c : Thread nD τ).loc main_arg7)) shapeCasts_S128_S1x128 := by
  rw [← W10_arg7 m ρ c]
  show StableHlo.after hostOps4 _ (Proc.devRef .tc main_v67) = _
  after_results <;> rfl

/-- Region 5 finds region 4's result as region 4 left it. -/
theorem W13_v68 (c : Dev nD) :
    W13 m ρ c (Proc.devRef .tc main_v68) = W12 m ρ c (Proc.devRef .tc main_v68) :=
  unwritten hostOps5

/-- Region 5 finds its weight `Wo` narrowed to bf16. -/
theorem W13_v69 (c : Dev nD) :
    W13 m ρ c (Proc.devRef .tc main_v69) = truncf .bf16 (m ((c : Thread nD τ).loc main_arg8)) bitsLt_bf16_f32 := by
  rw [← W12_arg8 m ρ c]
  show StableHlo.after hostOps5 _ (Proc.devRef .tc main_v69) = _
  after_results <;> rfl

/-- Region 5 finds the bias `bo` laid out as one row. -/
theorem W13_v70 (c : Dev nD) :
    W13 m ρ c (Proc.devRef .tc main_v70) = shapeCast S1x64 (m ((c : Thread nD τ).loc main_arg9)) shapeCasts_S64_S1x64 := by
  rw [← W12_arg9 m ρ c]
  show StableHlo.after hostOps5 _ (Proc.devRef .tc main_v70) = _
  after_results <;> rfl

end Cert.KernelIdeal.Walk

end
-- ==== Proof.Net.lean ====
/-
  The whole network as one function of its ten arguments.

  Two graph-convolution layers, each a product with a weight, the aggregation over the edges (`Graph.agg`), a bias and a
  hyperbolic tangent; a linear layer between them and one after them; then, in each of the 64 output columns, the greatest
  entry over the 50000 nodes. Both programs compute this function: the kernel's program with each dense layer as a
  pipeline over blocks of 2000 rows, the reference with each as one host operation over all rows.
-/
import proofs.«110766_j28965259444614_1_alg».proof.Proof.LibLayers
import proofs.«110766_j28965259444614_1_alg».proof.Proof.Graph

noncomputable section

namespace Cert.Net

open Cert.KernelIdeal Cert.Layers Idealize.ShloMosaic Idealize.ShloMosaic.Rowwise

variable [Cert.KernelIdeal.Facts]

/-- The network: `max over nodes of (tanh(agg(tanh(agg(x·W1) + b1)·Wl + bl)·W2) + b2)·Wo + bo)`. -/
def net (x : S50000x128.Idx → EReal) (ei : (⟨S2x800000, .i32⟩ : BufTy).Contents (Elt Ideal))
    (W1 : S128x128.Idx → EReal) (b1 : S128.Idx → EReal) (Wl : S128x128.Idx → EReal) (bl : S128.Idx → EReal)
    (W2 : S128x128.Idx → EReal) (b2 : S128.Idx → EReal) (Wo : S128x64.Idx → EReal) (bo : S64.Idx → EReal) :
    S1x64.Idx → EReal :=
  colMax (R := 50000) (n := 64)
    (onRows (R := 50000) (n := 128) (k := 64) (lin (mat (K := 128) (N := 64) Wo) (vec (n := 64) bo))
      (onRows (R := 50000) (n := 128) (k := 128) (act (vec (n := 128) b2))
        (Graph.agg (F := Ideal) ei
          (onRows (R := 50000) (n := 128) (k := 128) (mm (mat (K := 128) (N := 128) W2))
            (onRows (R := 50000) (n := 128) (k := 128) (lin (mat (K := 128) (N := 128) Wl) (vec (n := 128) bl))
              (onRows (R := 50000) (n := 128) (k := 128) (act (vec (n := 128) b1))
                (Graph.agg (F := Ideal) ei
                  (onRows (R := 50000) (n := 128) (k := 128) (mm (mat (K := 128) (N := 128) W1)) x))))))))

end Cert.Net

end
-- ==== Proof.Bridge.lean ====
/-
  The kernel's program computes the network.

  Region by region: each region's result array is its layer of what it finds in its operands' arrays (`Region0` …
  `Region6`), and what it finds there is what the regions and host operations before it left (`Walk`). So the arrays
  after the regions are, in order: `x · W1`; the hyperbolic tangent of its aggregation plus `b1`; that times `Wl` plus
  `bl`; that times `W2`; the hyperbolic tangent of its aggregation plus `b2`; that times `Wo` plus `bo`; and its maximum
  over the nodes, which is `Net.net` of the ten arguments. (A weight narrowed to bf16 is the weight, and a bias recast as
  a one-row array has the bias as its row: at the exact values both changes are the identity.)
-/
import proofs.«110766_j28965259444614_1_alg».proof.Proof.Gen.KernelIdeal.Frame
import proofs.«110766_j28965259444614_1_alg».proof.Proof.Region0
import proofs.«110766_j28965259444614_1_alg».proof.Proof.Region1
import proofs.«110766_j28965259444614_1_alg».proof.Proof.Region2
import proofs.«110766_j28965259444614_1_alg».proof.Proof.Region3
import proofs.«110766_j28965259444614_1_alg».proof.Proof.Region4
import proofs.«110766_j28965259444614_1_alg».proof.Proof.Region5
import proofs.«110766_j28965259444614_1_alg».proof.Proof.Region6
import proofs.«110766_j28965259444614_1_alg».proof.Proof.Walk
import proofs.«110766_j28965259444614_1_alg».proof.Proof.Net

set_option maxRecDepth 16384

noncomputable section

namespace Cert.KernelIdeal.Bridge

open Cert.KernelIdeal Cert.KernelIdeal.Gen Cert.Layers
open Idealize.ShloMosaic Idealize.ShloMosaic.TcCoe Idealize.SL.Sem Idealize.ShloMosaic.Rowwise

variable (m : (ℓ : Loc nD τ sig) → Buf (Elt Ideal) ℓ) (ρ : Dev nD → PrngReg)

/-- `x · W1`. -/
abbrev h0 (c : Dev nD) : S50000x128.Idx → EReal :=
  onRows (R := 50000) (n := 128) (k := 128) (mm (mat (K := 128) (N := 128) (m ((c : Thread nD τ).loc main_arg2)))) (m ((c : Thread nD τ).loc main_arg0))
/-- The first convolution's output. -/
abbrev h1 (c : Dev nD) : S50000x128.Idx → EReal :=
  onRows (R := 50000) (n := 128) (k := 128) (act (vec (n := 128) (m ((c : Thread nD τ).loc main_arg3)))) (Graph.agg (F := Ideal) (m ((c : Thread nD τ).loc main_arg1)) (h0 m c))
/-- The linear layer's output. -/
abbrev h2 (c : Dev nD) : S50000x128.Idx → EReal :=
  onRows (R := 50000) (n := 128) (k := 128) (lin (mat (K := 128) (N := 128) (m ((c : Thread nD τ).loc main_arg4))) (vec (n := 128) (m ((c : Thread nD τ).loc main_arg5)))) (h1 m c)
/-- Times `W2`. -/
abbrev h3 (c : Dev nD) : S50000x128.Idx → EReal :=
  onRows (R := 50000) (n := 128) (k := 128) (mm (mat (K := 128) (N := 128) (m ((c : Thread nD τ).loc main_arg6)))) (h2 m c)
/-- The second convolution's output. -/
abbrev h4 (c : Dev nD) : S50000x128.Idx → EReal :=
  onRows (R := 50000) (n := 128) (k := 128) (act (vec (n := 128) (m ((c : Thread nD τ).loc main_arg7)))) (Graph.agg (F := Ideal) (m ((c : Thread nD τ).loc main_arg1)) (h3 m c))
/-- The output layer's output. -/
abbrev h5 (c : Dev nD) : S50000x64.Idx → EReal :=
  onRows (R := 50000) (n := 128) (k := 64) (lin (mat (K := 128) (N := 64) (m ((c : Thread nD τ).loc main_arg8))) (vec (n := 64) (m ((c : Thread nD τ).loc main_arg9)))) (h4 m c)

/-- After region 0 its result array holds `x · W1`. -/
theorem at_v33 (c : Dev nD) : W4 m ρ c (Proc.devRef .tc main_v33) = h0 m c := by
  refine (W4_arr m ρ c 2).trans ((Region0.final (V3 m ρ) c).trans ?_)
  show onRows (R := 50000) (n := 128) (k := 128) (mm (mat (K := 128) (N := 128) (W3 m ρ c (Proc.devRef .tc main_v32)))) (W3 m ρ c (Proc.devRef .tc main_arg0)) = _
  rw [Walk.W3_v32 m ρ c, Walk.W3_arg0 m ρ c]
  rfl

/-- After region 1 its result array holds the first convolution's output. -/
theorem at_v48 (c : Dev nD) : W6 m ρ c (Proc.devRef .tc main_v48) = h1 m c := by
  refine (W6_arr m ρ c 2).trans ((Region1.final (V5 m ρ) c).trans ?_)
  show onRows (R := 50000) (n := 128) (k := 128) (act (row (R := 1) (n := 128) (W5 m ρ c (Proc.devRef .tc main_v47)) 0)) (W5 m ρ c (Proc.devRef .tc main_v46)) = _
  rw [Walk.W5_v47 m ρ c, Walk.W5_v46 m ρ c, at_v33 m ρ c, row_reshape_vector]

/-- After region 2 its result array holds the linear layer's output. -/
theorem at_v51 (c : Dev nD) : W8 m ρ c (Proc.devRef .tc main_v51) = h2 m c := by
  refine (W8_arr m ρ c 3).trans ((Region2.final (V7 m ρ) c).trans ?_)
  show onRows (R := 50000) (n := 128) (k := 128) (lin (mat (K := 128) (N := 128) (W7 m ρ c (Proc.devRef .tc main_v49))) (row (R := 1) (n := 128) (W7 m ρ c (Proc.devRef .tc main_v50)) 0)) (W7 m ρ c (Proc.devRef .tc main_v48)) = _
  rw [Walk.W7_v49 m ρ c, Walk.W7_v50 m ρ c, Walk.W7_v48 m ρ c, at_v48 m ρ c, row_reshape_vector]
  rfl

/-- After region 3 its result array holds that times `W2`. -/
theorem at_v53 (c : Dev nD) : W10 m ρ c (Proc.devRef .tc main_v53) = h3 m c := by
  refine (W10_arr m ρ c 2).trans ((Region3.final (V9 m ρ) c).trans ?_)
  show onRows (R := 50000) (n := 128) (k := 128) (mm (mat (K := 128) (N := 128) (W9 m ρ c (Proc.devRef .tc main_v52)))) (W9 m ρ c (Proc.devRef .tc main_v51)) = _
  rw [Walk.W9_v52 m ρ c, Walk.W9_v51 m ρ c, at_v51 m ρ c]
  rfl

/-- After region 4 its result array holds the second convolution's output. -/
theorem at_v68 (c : Dev nD) : W12 m ρ c (Proc.devRef .tc main_v68) = h4 m c := by
  refine (W12_arr m ρ c 2).trans ((Region4.final (V11 m ρ) c).trans ?_)
  show onRows (R := 50000) (n := 128) (k := 128) (act (row (R := 1) (n := 128) (W11 m ρ c (Proc.devRef .tc main_v67)) 0)) (W11 m ρ c (Proc.devRef .tc main_v66)) = _
  rw [Walk.W11_v67 m ρ c, Walk.W11_v66 m ρ c, at_v53 m ρ c, row_reshape_vector]

/-- After region 5 its result array holds the output layer's output. -/
theorem at_v71 (c : Dev nD) : W14 m ρ c (Proc.devRef .tc main_v71) = h5 m c := by
  refine (W14_arr m ρ c 3).trans ((Region5.final (V13 m ρ) c).trans ?_)
  show onRows (R := 50000) (n := 128) (k := 64) (lin (mat (K := 128) (N := 64) (W13 m ρ c (Proc.devRef .tc main_v69))) (row (R := 1) (n := 64) (W13 m ρ c (Proc.devRef .tc main_v70)) 0)) (W13 m ρ c (Proc.devRef .tc main_v68)) = _
  rw [Walk.W13_v69 m ρ c, Walk.W13_v70 m ρ c, Walk.W13_v68 m ρ c, at_v68 m ρ c, row_reshape_vector]
  rfl

/-- After the last region the result buffer holds the network of the arguments. -/
theorem value (c : Dev nD) : W15 m ρ c (Proc.devRef .tc main_v72)
    = Cert.Net.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W15_arr m ρ c 1).trans ((Region6.final6 (V14 m ρ) c).trans ?_)
  show colMax (R := 50000) (n := 64) (W14 m ρ c (Proc.devRef .tc main_v71)) = _
  rw [at_v71 m ρ c]
  rfl

end Cert.KernelIdeal.Bridge

end
-- ==== Proof.LibHostLayers.lean ====
/-
  The reference's dense layers, read one row at a time.

  The host's product of all rows with a weight is `onRows (mm W) X`; its activation, the hyperbolic tangent of the array
  plus the bias vector laid out as one row and repeated down the rows, is `onRows (act b) Y`; its product plus such a
  bias is `onRows (lin W b) X`. Row `p` of each depends on row `p` of the operand alone, by the same function as the
  kernel's block of rows (`LibLayers`).
-/
import proofs.«110766_j28965259444614_1_alg».proof.Proof.LibLayers

noncomputable section

namespace Cert.Layers

open Idealize.ShloMosaic Idealize.ShloMosaic.ValueIdx Idealize.ShloMosaic.Rowwise

/-- The host's product of every row with the weight. -/
theorem host_mm {R K N : Nat} (d : DotDims ⟨2, ![R, K]⟩ ⟨2, ![K, N]⟩ ⟨2, ![R, N]⟩) (hd : d = DotDims.plain R K N)
    (X : FVec Ideal ⟨2, ![R, K]⟩ .f32) (W : FVec Ideal ⟨2, ![K, N]⟩ .f32) :
    Host.dotGeneral d none X W = onRows (mm (mat W)) X := by
  subst hd
  exact eq_onRows _ _ _ (fun p => row_dotGeneral none .single X W p)

/-- The host's activation: the hyperbolic tangent of every row plus the bias row. -/
theorem host_act {R n : Nat} (Y : FVec Ideal ⟨2, ![R, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![R, n]⟩ ![0, 1]) :
    Host.tanh (addf Y (broadcastInDim ⟨2, ![R, n]⟩ ![0, 1] h2 (broadcastInDim ⟨2, ![1, n]⟩ ![1] h1 b)))
      = onRows (act (vec b)) Y := by
  refine eq_onRows _ _ _ (fun p => ?_)
  rw [row_hostTanh, row_addf, row_broadcastInDim_row, row_vector_as_row]
  rfl

/-- The host's linear layer: every row times the weight, plus the bias row. -/
theorem host_lin {R K N : Nat} (d : DotDims ⟨2, ![R, K]⟩ ⟨2, ![K, N]⟩ ⟨2, ![R, N]⟩) (hd : d = DotDims.plain R K N)
    (X : FVec Ideal ⟨2, ![R, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (Host.dotGeneral d none X W) (broadcastInDim ⟨2, ![R, N]⟩ ![0, 1] h2 (broadcastInDim ⟨2, ![1, N]⟩ ![1] h1 b))
      = onRows (lin (mat W) (vec b)) X := by
  subst hd
  refine eq_onRows _ _ _ (fun p => ?_)
  rw [row_addf, row_broadcastInDim_row, row_vector_as_row]
  funext q
  exact congrArg (· + vec b q) (congrFun (row_dotGeneral none .single X W p) q)

end Cert.Layers

end
-- ==== Proof.RefPool.lean ====
/-
  The reference's pooling, read as the column maximum.

  The reference ends with one reduce of the `[50000, 64]` array over its rows, with the maximum as body and −∞ as initial
  value, and lays the resulting `[64]` vector out as a `[1, 64]` array. Read at column `q`, the reduce is the fold of the
  maximum from −∞ over the 50000 entries of that column, which is `colMax` there; the layout step only renames the index.
-/
import proofs.«110766_j28965259444614_1_alg».proof.Proof.Gen.ReferenceIdeal
import proofs.«110766_j28965259444614_1_alg».proof.Proof.LibLayers
import Idealize.ShloMosaic.PureOps.Ideal.Laws
import Idealize.ShloMosaic.PureOps.Reduce
import Idealize.ShloMosaic.Lib.ValueIdx
import Idealize.ShloMosaic.Lib.Pipeline.Value

set_option maxRecDepth 16384

noncomputable section

namespace Cert.ReferenceIdeal.Pool

open Cert.ReferenceIdeal Cert.Layers Idealize.ShloMosaic Idealize.ShloMosaic.ValueIdx
open Facts₀ Facts

/-- The bit pattern of the reduce's initial value is −∞. -/
theorem negInf : Ideal.ofBits .f32 0xFF800000#32 = (⊥ : EReal) := by simp [Ideal.ofBits, Ideal.ieee]

/-- The `[64]` vector is the `[50000, 64]` array with its row axis removed (the reduce's own shape fact, and the result has an axis). -/
theorem reduces_rows : S50000x64.Reduces [0] S64 :=
  let ⟨hr, hs⟩ := (reducesTo_S50000x64_S64_d0 : S50000x64.ReducesTo [0] S64)
  ⟨hr, Nat.one_pos, hs⟩

/-- The reduce drops the row axis: the index of column `q` with row `r` put back is `(r, q)`. -/
theorem lift_col (h : S50000x64.Reduces [0] S64) (q : Fin 64) (r : Fin 50000) :
    h.lift (ix1 q) r = ix2 r q := by
  funext c
  match c with
  | ⟨0, _⟩ => exact Fin.ext rfl
  | ⟨1, _⟩ => exact Fin.ext rfl

theorem hostPool (X : FVec Ideal S50000x64 .f32) :
    broadcastInDim S1x64 ![1] bcast_S64_S1x64_1 (Host.reduce FloatOps.maximumf X (constant (F := Ideal) S_ .f32 0xFF800000#32) reducesTo_S50000x64_S64_d0 h_S_)
      = colMax (R := 50000) (n := 64) X := by
  have h : S50000x64.Reduces [0] S64 := reduces_rows
  funext j
  obtain ⟨z, q, rfl⟩ : ∃ (z : Fin 1) (q : Fin 64), j = ix2 z q := ⟨j 0, j 1, eq_ix2 j⟩
  -- the layout step: the one-row array at (z, q) is the vector at q
  refine (broadcastInDim_apply (s := S64) (t := S1x64) ![1] bcast_S64_S1x64_1 _ (ix2 z q) (ix1 q) ?_).trans ?_
  · intro a
    match a with
    | ⟨0, _⟩ => rfl
  -- the reduce at q: the fold of the maximum from the initial value over the column's entries
  refine (Host.reduce_eq_fold_single FloatOps.maximumf X _ reducesTo_S50000x64_S64_d0 h h_S_ (ix1 q)).trans ?_
  show Finset.univ.fold max (Ideal.ofBits .f32 0xFF800000#32) (fun r : Fin 50000 => X (h.lift (ix1 q) r))
    = Finset.univ.fold max (⊥ : EReal) fun r : Fin 50000 => X (ix2 r q)
  rw [negInf]
  exact congrArg (Finset.univ.fold max (⊥ : EReal)) (funext fun r => congrArg X (lift_col h q r))

end Cert.ReferenceIdeal.Pool

end
-- ==== Proof.RefValue.lean ====
/-
  The reference computes the network.

  Its dense stretches are read one row at a time (`LibHostLayers`); its two aggregations are the function `Graph.agg` of the
  edge list (the very operations `Graph` spells, on the reference's own buffers: the edge weights are computed once per
  convolution by the same operations of the edge list, hence equal); its last two operations are the maximum over the
  nodes (`hostPool`). Stage by stage the result is `Net.net` of the ten arguments.
-/
import proofs.«110766_j28965259444614_1_alg».proof.Proof.RefRead
import proofs.«110766_j28965259444614_1_alg».proof.Proof.Gen.KernelIdeal
import proofs.«110766_j28965259444614_1_alg».proof.Proof.Net
import proofs.«110766_j28965259444614_1_alg».proof.Proof.LibHostLayers
import proofs.«110766_j28965259444614_1_alg».proof.Proof.RefPool

noncomputable section

namespace Cert.ReferenceIdeal.RefValue

open Cert.ReferenceIdeal Cert.ReferenceIdeal.ReadP Cert.Layers
open Idealize.ShloMosaic Idealize.ShloMosaic.Rowwise

section Aggregation

variable {F : FTy → Type} [FloatOps F]

/-- The first convolution's gather, product and scatter-add are the aggregation `Graph.agg` of the edge list. -/
theorem agg_first (x1 : (⟨S2x800000, .i32⟩ : BufTy).Contents (Elt F)) (h : (⟨S50000x128, .f32⟩ : BufTy).Contents (Elt F)) :
    Host.scatterAdd scatter_S50000x128_S850000x1_S850000x128_1_0_0_1 (val_main_v43 (F := F)) (val_main_v44 (F := F) x1)
        (mulf (Host.gather gather_S50000x128_S850000x1_S850000x128_1_0_n_n_0_1_1128 h (val_main_v38 (F := F) x1)) (val_main_v41 (F := F) x1))
      = Cert.KernelIdeal.Graph.agg (F := F) x1 h := rfl

/-- The second convolution's likewise: its edge weights are computed anew by the same operations of the edge list. -/
theorem agg_second (x1 : (⟨S2x800000, .i32⟩ : BufTy).Contents (Elt F)) (h : (⟨S50000x128, .f32⟩ : BufTy).Contents (Elt F)) :
    Host.scatterAdd scatter_S50000x128_S850000x1_S850000x128_1_0_0_1 (val_main_v90 (F := F)) (val_main_v91 (F := F) x1)
        (mulf (Host.gather gather_S50000x128_S850000x1_S850000x128_1_0_n_n_0_1_1128 h (val_main_v85 (F := F) x1)) (val_main_v88 (F := F) x1))
      = Cert.KernelIdeal.Graph.agg (F := F) x1 h := rfl

end Aggregation

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal))

theorem dims128 : dot_S50000x128_S128x128_S50000x128_1_0_0_1_n_n = DotDims.plain 50000 128 128 := rfl
theorem dims64 : dot_S50000x128_S128x64_S50000x64_1_0_0_1_n_n = DotDims.plain 50000 128 64 := rfl

/-- `x · W1`. -/
theorem stage32 : val_main_v32 (F := Ideal) x0 x2 = onRows (R := 50000) (n := 128) (k := 128) (mm (mat (K := 128) (N := 128) x2)) x0 := by
  unfold val_main_v32
  exact host_mm _ dims128 x0 x2

/-- Its aggregation. -/
theorem stage45 : val_main_v45 (F := Ideal) x0 x1 x2 = Cert.KernelIdeal.Graph.agg (F := Ideal) x1 (val_main_v32 (F := Ideal) x0 x2) := by
  unfold val_main_v45 val_main_v42 val_main_v39
  exact agg_first x1 _

/-- Plus `b1`, through the hyperbolic tangent. -/
theorem stage49 : val_main_v49 (F := Ideal) x0 x1 x2 x3 = onRows (R := 50000) (n := 128) (k := 128) (act (vec (n := 128) x3)) (val_main_v45 (F := Ideal) x0 x1 x2) := by
  unfold val_main_v49 val_main_v48 val_main_v47 val_main_v46
  exact host_act _ x3 _ _

/-- Times `Wl`, plus `bl`. -/
theorem stage53 : val_main_v53 (F := Ideal) x0 x1 x2 x3 x4 x5 = onRows (R := 50000) (n := 128) (k := 128) (lin (mat (K := 128) (N := 128) x4) (vec (n := 128) x5)) (val_main_v49 (F := Ideal) x0 x1 x2 x3) := by
  unfold val_main_v53 val_main_v52 val_main_v51 val_main_v50
  exact host_lin _ dims128 _ x4 x5 _ _

/-- Times `W2`. -/
theorem stage79 : val_main_v79 (F := Ideal) x0 x1 x2 x3 x4 x5 x6 = onRows (R := 50000) (n := 128) (k := 128) (mm (mat (K := 128) (N := 128) x6)) (val_main_v53 (F := Ideal) x0 x1 x2 x3 x4 x5) := by
  unfold val_main_v79
  exact host_mm _ dims128 _ x6

/-- Its aggregation. -/
theorem stage92 : val_main_v92 (F := Ideal) x0 x1 x2 x3 x4 x5 x6 = Cert.KernelIdeal.Graph.agg (F := Ideal) x1 (val_main_v79 (F := Ideal) x0 x1 x2 x3 x4 x5 x6) := by
  unfold val_main_v92 val_main_v89 val_main_v86
  exact agg_second x1 _

/-- Plus `b2`, through the hyperbolic tangent. -/
theorem stage96 : val_main_v96 (F := Ideal) x0 x1 x2 x3 x4 x5 x6 x7 = onRows (R := 50000) (n := 128) (k := 128) (act (vec (n := 128) x7)) (val_main_v92 (F := Ideal) x0 x1 x2 x3 x4 x5 x6) := by
  unfold val_main_v96 val_main_v95 val_main_v94 val_main_v93
  exact host_act _ x7 _ _

/-- Times `Wo`, plus `bo`. -/
theorem stage100 : val_main_v100 (F := Ideal) x0 x1 x2 x3 x4 x5 x6 x7 x8 x9 = onRows (R := 50000) (n := 128) (k := 64) (lin (mat (K := 128) (N := 64) x8) (vec (n := 64) x9)) (val_main_v96 (F := Ideal) x0 x1 x2 x3 x4 x5 x6 x7) := by
  unfold val_main_v100 val_main_v99 val_main_v98 val_main_v97
  exact host_lin _ dims64 _ x8 x9 _ _

/-- The maximum over the nodes. -/
theorem stage102 : val_main_v102 (F := Ideal) x0 x1 x2 x3 x4 x5 x6 x7 x8 x9 = colMax (R := 50000) (n := 64) (val_main_v100 (F := Ideal) x0 x1 x2 x3 x4 x5 x6 x7 x8 x9) := by
  unfold val_main_v102 val_main_v101 val_main_cst_22
  exact Cert.ReferenceIdeal.Pool.hostPool _

/-- The reference's result is the network of its arguments. -/
theorem value : val_main_v102 (F := Ideal) x0 x1 x2 x3 x4 x5 x6 x7 x8 x9 = Cert.Net.net x0 x1 x2 x3 x4 x5 x6 x7 x8 x9 := by
  rw [stage102, stage100, stage96, stage92, stage79, stage53, stage49, stage45, stage32]
  rfl

end Cert.ReferenceIdeal.RefValue

end
-- ==== Proof.lean ====
/-
  A two-layer graph-convolution network with a linear layer between the convolutions and an output layer after them,
  max-pooled over the 50000 nodes: the kernel's program against the jnp reference, equal over the extended reals.

  The kernel's program runs each dense layer as a pipeline over blocks of 2000 rows (a product with a bf16-narrowed
  weight, a bias row and a hyperbolic tangent, a product plus a bias row, and the running maximum over the blocks) and the
  graph part — the edge weights `D^(-1/2) (A + I) D^(-1/2)` and the aggregation over the edges — by host operations
  between the pipelines; the reference runs everything as host operations over all rows. At the exact values a change of
  float format is the identity, a block's rows times a weight are those rows of the whole product, and the maximum over
  25 runs of 2000 rows is the maximum over all rows; the graph part is the same operations on both sides and is never
  opened. So both programs end with their result at ONE function of the ten arguments (`Cert.Net.net`): the kernel's by
  `Cert.KernelIdeal.Bridge.value` over its run with the result named, the reference's by
  `Cert.ReferenceIdeal.RefValue.value` over its run. No law used needs the inputs finite. The three frames are the
  programs' runs with the result dropped; the idealization rewrote nothing, so `preserves` is trivial.
-/
import proofs.«110766_j28965259444614_1_alg».proof.Defs
import proofs.«110766_j28965259444614_1_alg».proof.Proof.Gen.Kernel
import proofs.«110766_j28965259444614_1_alg».proof.Proof.Gen.Kernel.Skeleton
import proofs.«110766_j28965259444614_1_alg».proof.Proof.Gen.Kernel.Launch
import proofs.«110766_j28965259444614_1_alg».proof.Proof.Gen.Kernel.Points
import proofs.«110766_j28965259444614_1_alg».proof.Proof.Gen.Kernel.Frame
import proofs.«110766_j28965259444614_1_alg».proof.Proof.Gen.KernelIdeal
import proofs.«110766_j28965259444614_1_alg».proof.Proof.Gen.KernelIdeal.Skeleton
import proofs.«110766_j28965259444614_1_alg».proof.Proof.Gen.KernelIdeal.Launch
import proofs.«110766_j28965259444614_1_alg».proof.Proof.Gen.KernelIdeal.Points
import proofs.«110766_j28965259444614_1_alg».proof.Proof.Gen.KernelIdeal.Frame
import proofs.«110766_j28965259444614_1_alg».proof.Proof.Gen.ReferenceIdeal
import proofs.«110766_j28965259444614_1_alg».proof.Proof.Gen.Pre_finite_inputs
import proofs.«110766_j28965259444614_1_alg».proof.Proof.KernelRun
import proofs.«110766_j28965259444614_1_alg».proof.Proof.Bridge
import proofs.«110766_j28965259444614_1_alg».proof.Proof.RefRun
import proofs.«110766_j28965259444614_1_alg».proof.Proof.RefRead
import proofs.«110766_j28965259444614_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the network of the arguments, which agree. -/
theorem algebraic : Cert.algebraic_KernelIdeal_ReferenceIdeal := by
  intro m ρ m' ρ' _ hagree
  refine ⟨fun c => Cert.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Bridge.value m ρ c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v102_eq, Cert.ReferenceIdeal.RefValue.value, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
